-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12000x64 : Shape := ⟨3, ![4, 12000, 64]⟩
abbrev S4x12000x3 : Shape := ⟨3, ![4, 12000, 3]⟩
abbrev S4x12000x1 : Shape := ⟨3, ![4, 12000, 1]⟩
abbrev S_ : Shape := ⟨0, ![]⟩
abbrev S4x12000 : Shape := ⟨2, ![4, 12000]⟩

class Facts : Prop where
  bcast_S_S4x12000x64 : S_.BroadcastsInDim S4x12000x64 (![] : Fin 0 → Fin S4x12000x64.rank)
  reducesTo_S4x12000x64_S_d0_1_2 : S4x12000x64.ReducesTo [0, 1, 2] S_
  h_S_ : 0 < S_.numel
  slices_S4x12000x3_S4x12000x1_0_0_1 : S4x12000x3.Slices ![0, 0, 1] S4x12000x1
  shapeCasts_S4x12000x1_S4x12000 : S4x12000x1.ShapeCasts S4x12000
  bcast_S_S4x12000 : S_.BroadcastsInDim S4x12000 (![] : Fin 0 → Fin S4x12000.rank)
  slices_S4x12000x3_S4x12000x1_0_0_2 : S4x12000x3.Slices ![0, 0, 2] S4x12000x1
  reducesTo_S4x12000_S_d0_1 : S4x12000.ReducesTo [0, 1] S_

variable [Facts]

def fn {F : FTy → Type} [FloatOps F] (main_arg0 : FVec F S4x12000x64 .f32) (main_arg1 : IVec S4x12000x3 32) (main_arg2 : IVec S4x12000x1 32) : IVec S_ 1 :=
  let main_v0 : FVec F S4x12000x64 .f32 := Host.absf main_arg0
  let main_cst : FVec F S_ .f32 := constant S_ .f32 0x7F800000#32
  let main_v1 : FVec F S4x12000x64 .f32 := broadcastInDim S4x12000x64 ![] bcast_S_S4x12000x64 main_cst
  let main_v2 : IVec S4x12000x64 1 := cmpf .olt main_v0 main_v1
  let main_c : IVec S_ 1 := constantI S_ 1 1#1
  let main_v3 : IVec S_ 1 := (fun x v => Host.reduce IntOp.andi x v reducesTo_S4x12000x64_S_d0_1_2 h_S_) main_v2 main_c
  let main_v4 : IVec S4x12000x1 32 := (extractStridedSlice S4x12000x1 ![0, 0, 1] · slices_S4x12000x3_S4x12000x1_0_0_1) main_arg1
  let main_v5 : IVec S4x12000 32 := shapeCast S4x12000 main_v4 shapeCasts_S4x12000x1_S4x12000
  let main_c_0 : IVec S_ 32 := constantI S_ 32 432#32
  let main_v6 : IVec S4x12000 32 := broadcastInDim S4x12000 ![] bcast_S_S4x12000 main_c_0
  let main_v7 : IVec S4x12000 32 := muli main_v5 main_v6
  let main_v8 : IVec S4x12000x1 32 := (extractStridedSlice S4x12000x1 ![0, 0, 2] · slices_S4x12000x3_S4x12000x1_0_0_2) main_arg1
  let main_v9 : IVec S4x12000 32 := shapeCast S4x12000 main_v8 shapeCasts_S4x12000x1_S4x12000
  let main_v10 : IVec S4x12000 32 := addi main_v7 main_v9
  let main_c_1 : IVec S_ 32 := constantI S_ 32 0#32
  let main_v11 : IVec S4x12000 32 := broadcastInDim S4x12000 ![] bcast_S_S4x12000 main_c_1
  let main_v12 : IVec S4x12000 1 := cmpi .sge main_v10 main_v11
  let main_c_2 : IVec S_ 1 := constantI S_ 1 1#1
  let main_v13 : IVec S_ 1 := (fun x v => Host.reduce IntOp.andi x v reducesTo_S4x12000_S_d0_1 h_S_) main_v12 main_c_2
  let main_v14 : IVec S_ 1 := andi main_v3 main_v13
  main_v14
-- ==== Kernel.lean ====
abbrev S4x12000x64 : Shape := ⟨3, ![4, 12000, 64]⟩
abbrev S4x12000x3 : Shape := ⟨3, ![4, 12000, 3]⟩
abbrev S4x12000x1 : Shape := ⟨3, ![4, 12000, 1]⟩
abbrev S4x12000 : Shape := ⟨2, ![4, 12000]⟩
abbrev S_ : Shape := ⟨0, ![]⟩
abbrev S4x12288x64 : Shape := ⟨3, ![4, 12288, 64]⟩
abbrev S4x12288 : Shape := ⟨2, ![4, 12288]⟩
abbrev S4x64x12288 : Shape := ⟨3, ![4, 64, 12288]⟩
abbrev S4x1x12288 : Shape := ⟨3, ![4, 1, 12288]⟩
abbrev S4x12288x1 : Shape := ⟨3, ![4, 12288, 1]⟩
abbrev S4x64x186624 : Shape := ⟨3, ![4, 64, 186624]⟩
abbrev S1x64x12288 : Shape := ⟨3, ![1, 64, 12288]⟩
abbrev S1x1x12288 : Shape := ⟨3, ![1, 1, 12288]⟩
abbrev S1x12288x1 : Shape := ⟨3, ![1, 12288, 1]⟩
abbrev S1x64x6912 : Shape := ⟨3, ![1, 64, 6912]⟩
abbrev S1x6912 : Shape := ⟨2, ![1, 6912]⟩
abbrev S64x6912 : Shape := ⟨2, ![64, 6912]⟩
abbrev S1x64x768 : Shape := ⟨3, ![1, 64, 768]⟩
abbrev S64x768 : Shape := ⟨2, ![64, 768]⟩
abbrev S1x1x768 : Shape := ⟨3, ![1, 1, 768]⟩
abbrev S1x768 : Shape := ⟨2, ![1, 768]⟩
abbrev S1x768x1 : Shape := ⟨3, ![1, 768, 1]⟩
abbrev S768x1 : Shape := ⟨2, ![768, 1]⟩
abbrev S768x6912 : Shape := ⟨2, ![768, 6912]⟩
abbrev S4x64x432x432 : Shape := ⟨4, ![4, 64, 432, 432]⟩

abbrev nBuf : Space → Nat
  | .hbm => 30
  | .vmem => 8
  | .smem => 0
  | _ => 0

abbrev bufTy : (tb : Table) → Fin (tcTables nBuf tb) → BufTy
  | .hbm, ⟨0, _⟩ => ⟨S4x12000x64, .f32⟩
  | .hbm, ⟨1, _⟩ => ⟨S4x12000x3, .i32⟩
  | .hbm, ⟨2, _⟩ => ⟨S4x12000x1, .i32⟩
  | .hbm, ⟨3, _⟩ => ⟨S4x12000x1, .i32⟩
  | .hbm, ⟨4, _⟩ => ⟨S4x12000, .i32⟩
  | .hbm, ⟨5, _⟩ => ⟨S_, .i32⟩
  | .hbm, ⟨6, _⟩ => ⟨S4x12000, .i32⟩
  | .hbm, ⟨7, _⟩ => ⟨S4x12000, .i32⟩
  | .hbm, ⟨8, _⟩ => ⟨S4x12000x1, .i32⟩
  | .hbm, ⟨9, _⟩ => ⟨S4x12000, .i32⟩
  | .hbm, ⟨10, _⟩ => ⟨S4x12000, .i32⟩
  | .hbm, ⟨11, _⟩ => ⟨S4x12000, .i32⟩
  | .hbm, ⟨12, _⟩ => ⟨S_, .i32⟩
  | .hbm, ⟨13, _⟩ => ⟨S4x12000, .i32⟩
  | .hbm, ⟨14, _⟩ => ⟨S4x12000, .i1⟩
  | .hbm, ⟨15, _⟩ => ⟨S4x12000, .f32⟩
  | .hbm, ⟨16, _⟩ => ⟨S_, .i32⟩
  | .hbm, ⟨17, _⟩ => ⟨S_, .f32⟩
  | .hbm, ⟨18, _⟩ => ⟨S4x12288x64, .f32⟩
  | .hbm, ⟨19, _⟩ => ⟨S_, .i32⟩
  | .hbm, ⟨20, _⟩ => ⟨S_, .i32⟩
  | .hbm, ⟨21, _⟩ => ⟨S4x12288, .i32⟩
  | .hbm, ⟨22, _⟩ => ⟨S_, .i32⟩
  | .hbm, ⟨23, _⟩ => ⟨S_, .f32⟩
  | .hbm, ⟨24, _⟩ => ⟨S4x12288, .f32⟩
  | .hbm, ⟨25, _⟩ => ⟨S4x64x12288, .f32⟩
  | .hbm, ⟨26, _⟩ => ⟨S4x1x12288, .f32⟩
  | .hbm, ⟨27, _⟩ => ⟨S4x12288x1, .i32⟩
  | .hbm, ⟨28, _⟩ => ⟨S4x64x186624, .f32⟩
  | .hbm, ⟨29, _⟩ => ⟨S4x64x432x432, .f32⟩
  | .local _ .vmem, ⟨0, _⟩ => ⟨S1x64x12288, .f32⟩
  | .local _ .vmem, ⟨1, _⟩ => ⟨S1x64x12288, .f32⟩
  | .local _ .vmem, ⟨2, _⟩ => ⟨S1x1x12288, .f32⟩
  | .local _ .vmem, ⟨3, _⟩ => ⟨S1x1x12288, .f32⟩
  | .local _ .vmem, ⟨4, _⟩ => ⟨S1x12288x1, .i32⟩
  | .local _ .vmem, ⟨5, _⟩ => ⟨S1x12288x1, .i32⟩
  | .local _ .vmem, ⟨6, _⟩ => ⟨S1x64x6912, .f32⟩
  | .local _ .vmem, ⟨7, _⟩ => ⟨S1x64x6912, .f32⟩
  | _, _ => ⟨S4x12000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_v11 : Ref sig .tc := ⟨.hbm, 18, rfl⟩
abbrev main_c_2 : Ref sig .tc := ⟨.hbm, 19, rfl⟩
abbrev main_call1_v0 : Ref sig .tc := ⟨.hbm, 20, rfl⟩
abbrev main_v12 : Ref sig .tc := ⟨.hbm, 21, rfl⟩
abbrev main_c_3 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 27], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c768_i32 : BitVec 32 := 768#32
  let v10 : BitVec 32 := Scalar.muli arg6 c768_i32
  v10
def k0_off1 (k0_t1 : Fin k0_t1_loop.trips) : Fin 3 → Nat :=
  let c0_3 : Index := 0#32
  let c0_4 : Index := 0#32
  let c0_i32 : BitVec 32 := 0#32
  let c1_i32 : BitVec 32 := 1#32
  let arg6 : BitVec 32 := Scf.iv c0_i32 c1_i32 k0_t1
  let c768_i32 : BitVec 32 := 768#32
  let v10 : BitVec 32 := Scalar.muli arg6 c768_i32
  let v11 : BitVec 32 := v10
  let v12 : Index := Scalar.indexCast v11
  ![0, 0, v12.toNat]
def k0_off2 (k0_t1 : Fin k0_t1_loop.trips) : Fin 3 → Nat :=
  let c0_5 : Index := 0#32
  let c0_6 : Index := 0#32
  let c0_i32 : BitVec 32 := 0#32
  let c1_i32 : BitVec 32 := 1#32
  let arg6 : BitVec 32 := Scf.iv c0_i32 c1_i32 k0_t1
  let c768_i32 : BitVec 32 := 768#32
  let v10 : BitVec 32 := Scalar.muli arg6 c768_i32
  let v11 : BitVec 32 := v10
  let v15 : Index := Scalar.indexCast v11
  ![0, 0, v15.toNat]
def k0_off3 (k0_t1 : Fin k0_t1_loop.trips) : Fin 3 → Nat :=
  let c0_7 : Index := 0#32
  let c0_i32 : BitVec 32 := 0#32
  let c1_i32 : BitVec 32 := 1#32
  let arg6 : BitVec 32 := Scf.iv c0_i32 c1_i32 k0_t1
  let c768_i32 : BitVec 32 := 768#32
  let v10 : BitVec 32 := Scalar.muli arg6 c768_i32
  let v11 : BitVec 32 := v10
  let v18 : Index := Scalar.indexCast v11
  let c0_8 : Index := 0#32
  ![0, v18.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x12288x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x6912 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4x12000x3_S4x12000x1_0_0_1 : S4x12000x3.Slices ![0, 0, 1] S4x12000x1
  shapeCasts_S4x12000x1_S4x12000 : S4x12000x1.ShapeCasts S4x12000
  bcast_S_S4x12000 : S_.BroadcastsInDim S4x12000 (![] : Fin 0 → Fin S4x12000.rank)
  slices_S4x12000x3_S4x12000x1_0_0_2 : S4x12000x3.Slices ![0, 0, 2] S4x12000x1
  pads_S4x12000x64_S4x12288x64_000_02880_000 : S4x12000x64.Pads (![0, 0, 0] : Fin 3 → Nat) ![0, 288, 0] ![0, 0, 0] S4x12288x64
  h_S_ : 0 < S_.numel
  pads_S4x12000_S4x12288_000_02880 : S4x12000.Pads (![0, 0] : Fin 2 → Nat) ![0, 288] ![0, 0] S4x12288
  transposes_S4x12288x64_S4x64x12288_0_2_1 : S4x12288x64.Transposes [0, 2, 1] S4x64x12288
  bcast_S4x12288_S4x1x12288_0_2 : S4x12288.BroadcastsInDim S4x1x12288 (![0, 2] : Fin 2 → Fin S4x1x12288.rank)
  bcast_S4x12288_S4x12288x1_0_1 : S4x12288.BroadcastsInDim S4x12288x1 (![0, 1] : Fin 2 → Fin S4x12288x1.rank)
  iota_S1x6912_d1_w32 : S1x6912.Iotas .tc 32 [1]
  h_S1x64x768 : 0 < S1x64x768.numel
  shapeCasts_S1x64x768_S64x768 : S1x64x768.ShapeCasts S64x768
  h_S1x1x768 : 0 < S1x1x768.numel
  shapeCasts_S1x1x768_S1x768 : S1x1x768.ShapeCasts S1x768
  h_S1x768x1 : 0 < S1x768x1.numel
  shapeCasts_S1x768x1_S768x1 : S1x768x1.ShapeCasts S768x1
  broadcasts_S1x768_S64x768 : S1x768.Broadcasts S64x768
  bitsLt_bf16_f32 : FTy.bits .bf16 < FTy.bits .f32
  broadcasts_S768x1_S768x6912 : S768x1.Broadcasts S768x6912
  broadcasts_S1x6912_S768x6912 : S1x6912.Broadcasts S768x6912
  natLt_1_32 : 1 < 32
  inb_S1x64x6912_S1x64x6912_0_0_0 : ∀ a, (![0, 0, 0] : Fin 3 → Nat) a + S1x64x6912.size a ≤ S1x64x6912.size a
  h_S1x64x6912 : 0 < S1x64x6912.numel
  shapeCasts_S1x64x6912_S64x6912 : S1x64x6912.ShapeCasts S64x6912
  shapeCasts_S64x6912_S1x64x6912 : S64x6912.ShapeCasts S1x64x6912
  shapeCasts_S4x64x186624_S4x64x432x432 : S4x64x186624.ShapeCasts S4x64x432x432
  dot_S64x768_S768x6912_S64x6912_1_0_0_1_n_n_wf : DotDims.WF S64x768 S768x6912 S64x6912 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x64x768.size a ≤ S1x64x12288.size a
  k0_off2_inb : ∀ k0_t1 : Fin k0_t1_loop.trips, ∀ a, (k0_off2 k0_t1) a + S1x1x768.size a ≤ S1x1x12288.size a
  k0_off3_inb : ∀ k0_t1 : Fin k0_t1_loop.trips, ∀ a, (k0_off3 k0_t1) a + S1x768x1.size a ≤ S1x12288x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x12288.size a ≤ S4x64x12288.size a
  hwx0_0 : ∀ i : grid0.Coords, EltTy.bits .f32 = 32 ∨ (Rect.block (s := S4x64x12288) S1x64x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x12288.size a ≤ S4x1x12288.size a
  hwx0_1 : ∀ i : grid0.Coords, EltTy.bits .f32 = 32 ∨ (Rect.block (s := S4x1x12288) S1x1x12288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12288x1.size a ≤ S4x12288x1.size a
  hwx0_2 : ∀ i : grid0.Coords, EltTy.bits .i32 = 32 ∨ (Rect.block (s := S4x12288x1) S1x12288x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x6912.size a ≤ S4x64x186624.size a
  hwx0_3 : ∀ i : grid0.Coords, EltTy.bits .f32 = 32 ∨ (Rect.block (s := S4x64x186624) S1x64x6912.size (cc0_transform_3 i) (hinb0_3 i)).WholeWords (EltTy.packing .f32)

variable [Facts₀]

def dot_S64x768_S768x6912_S64x6912_1_0_0_1_n_n : DotDims S64x768 S768x6912 S64x6912 where
  lhsContracting := [1]
  rhsContracting := [0]
  lhsNonContracting := [0]
  rhsNonContracting := [1]
  lhsBatch := []
  rhsBatch := []
  wf := dot_S64x768_S768x6912_S64x6912_1_0_0_1_n_n_wf

abbrev win0_0 : Pipeline.Window sig grid0 :=
  Pipeline.Window.ofSpec (Memref.whole main_v14) S1x64x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x12288x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64x6912.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x12000x64 : Shape := ⟨3, ![4, 12000, 64]⟩
abbrev S4x12000x3 : Shape := ⟨3, ![4, 12000, 3]⟩
abbrev S4x12000x1 : Shape := ⟨3, ![4, 12000, 1]⟩
abbrev S4x12000 : Shape := ⟨2, ![4, 12000]⟩
abbrev S_ : Shape := ⟨0, ![]⟩
abbrev S4x186624x64 : Shape := ⟨3, ![4, 186624, 64]⟩
abbrev S4 : Shape := ⟨1, ![4]⟩
abbrev S4x1 : Shape := ⟨2, ![4, 1]⟩
abbrev S4x12000x2 : Shape := ⟨3, ![4, 12000, 2]⟩
abbrev S4x432x432x64 : Shape := ⟨4, ![4, 432, 432, 64]⟩
abbrev S4x64x432x432 : Shape := ⟨4, ![4, 64, 432, 432]⟩

abbrev nBuf : Space → Nat
  | .hbm => 45
  | .vmem => 0
  | .smem => 0
  | _ => 0

abbrev bufTy : (tb : Table) → Fin (tcTables nBuf tb) → BufTy
  | .hbm, ⟨0, _⟩ => ⟨S4x12000x64, .f32⟩
  | .hbm, ⟨1, _⟩ => ⟨S4x12000x3, .i32⟩
  | .hbm, ⟨2, _⟩ => ⟨S4x12000x1, .i32⟩
  | .hbm, ⟨3, _⟩ => ⟨S4x12000, .i32⟩
  | .hbm, ⟨4, _⟩ => ⟨S_, .i32⟩
  | .hbm, ⟨5, _⟩ => ⟨S4x12000, .i32⟩
  | .hbm, ⟨6, _⟩ => ⟨S4x12000, .i1⟩
  | .hbm, ⟨7, _⟩ => ⟨S4x12000x1, .i32⟩
  | .hbm, ⟨8, _⟩ => ⟨S4x12000, .i32⟩
  | .hbm, ⟨9, _⟩ => ⟨S_, .i32⟩
  | .hbm, ⟨10, _⟩ => ⟨S4x12000, .i32⟩
  | .hbm, ⟨11, _⟩ => ⟨S4x12000, .i32⟩
  | .hbm, ⟨12, _⟩ => ⟨S4x12000x1, .i32⟩
  | .hbm, ⟨13, _⟩ => ⟨S4x12000, .i32⟩
  | .hbm, ⟨14, _⟩ => ⟨S4x12000, .i32⟩
  | .hbm, ⟨15, _⟩ => ⟨S4x12000x1, .i1⟩
  | .hbm, ⟨16, _⟩ => ⟨S_, .f32⟩
  | .hbm, ⟨17, _⟩ => ⟨S4x12000x64, .i1⟩
  | .hbm, ⟨18, _⟩ => ⟨S4x12000x64, .f32⟩
  | .hbm, ⟨19, _⟩ => ⟨S4x12000x64, .f32⟩
  | .hbm, ⟨20, _⟩ => ⟨S_, .f32⟩
  | .hbm, ⟨21, _⟩ => ⟨S4x186624x64, .f32⟩
  | .hbm, ⟨22, _⟩ => ⟨S4, .i32⟩
  | .hbm, ⟨23, _⟩ => ⟨S4x1, .i32⟩
  | .hbm, ⟨24, _⟩ => ⟨S_, .i32⟩
  | .hbm, ⟨25, _⟩ => ⟨S4x1, .i32⟩
  | .hbm, ⟨26, _⟩ => ⟨S4x1, .i1⟩
  | .hbm, ⟨27, _⟩ => ⟨S_, .i32⟩
  | .hbm, ⟨28, _⟩ => ⟨S4x1, .i32⟩
  | .hbm, ⟨29, _⟩ => ⟨S4x1, .i32⟩
  | .hbm, ⟨30, _⟩ => ⟨S4x1, .i32⟩
  | .hbm, ⟨31, _⟩ => ⟨S_, .i32⟩
  | .hbm, ⟨32, _⟩ => ⟨S4x12000, .i32⟩
  | .hbm, ⟨33, _⟩ => ⟨S4x12000, .i1⟩
  | .hbm, ⟨34, _⟩ => ⟨S_, .i32⟩
  | .hbm, ⟨35, _⟩ => ⟨S4x12000, .i32⟩
  | .hbm, ⟨36, _⟩ => ⟨S4x12000, .i32⟩
  | .hbm, ⟨37, _⟩ => ⟨S4x12000, .i32⟩
  | .hbm, ⟨38, _⟩ => ⟨S4x12000, .i32⟩
  | .hbm, ⟨39, _⟩ => ⟨S4x12000x1, .i32⟩
  | .hbm, ⟨40, _⟩ => ⟨S4x12000x1, .i32⟩
  | .hbm, ⟨41, _⟩ => ⟨S4x12000x2, .i32⟩
  | .hbm, ⟨42, _⟩ => ⟨S4x186624x64, .f32⟩
  | .hbm, ⟨43, _⟩ => ⟨S4x432x432x64, .f32⟩
  | .hbm, ⟨44, _⟩ => ⟨S4x64x432x432, .f32⟩
  | _, _ => ⟨S4x12000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  shapeCasts_S4x12000x1_S4x12000 : S4x12000x1.ShapeCasts S4x12000
  bcast_S_S4x12000 : S_.BroadcastsInDim S4x12000 (![] : Fin 0 → Fin S4x12000.rank)
  slices_S4x12000x3_S4x12000x1_0_0_1 : S4x12000x3.Slices ![0, 0, 1] S4x12000x1
  slices_S4x12000x3_S4x12000x1_0_0_2 : S4x12000x3.Slices ![0, 0, 2] S4x12000x1
  bcast_S4x12000_S4x12000x1_0_1 : S4x12000.BroadcastsInDim S4x12000x1 (![0, 1] : Fin 2 → Fin S4x12000x1.rank)
  bcast_S4x12000x1_S4x12000x64_0_1_2 : S4x12000x1.BroadcastsInDim S4x12000x64 (![0, 1, 2] : Fin 3 → Fin S4x12000x64.rank)
  bcast_S_S4x12000x64 : S_.BroadcastsInDim S4x12000x64 (![] : Fin 0 → Fin S4x12000x64.rank)
  bcast_S_S4x186624x64 : S_.BroadcastsInDim S4x186624x64 (![] : Fin 0 → Fin S4x186624x64.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x12000_0_1 : S4x1.BroadcastsInDim S4x12000 (![0, 1] : Fin 2 → Fin S4x12000.rank)
  concatenates_S4x12000x1_S4x12000x1_S4x12000x2_d2 : Shape.Concatenates [S4x12000x1, S4x12000x1] S4x12000x2 2
  shapeCasts_S4x186624x64_S4x432x432x64 : S4x186624x64.ShapeCasts S4x432x432x64
  transposes_S4x432x432x64_S4x64x432x432_0_3_1_2 : S4x432x432x64.Transposes [0, 3, 1, 2] S4x64x432x432
  scatter_S4x186624x64_S4x12000x2_S4x12000x64_2_01_01_2_wf : ScatterDims.WF S4x186624x64 S4x12000x2 S4x12000x64 [2] [0, 1] [0, 1] 2

variable [Facts₀]

def scatter_S4x186624x64_S4x12000x2_S4x12000x64_2_01_01_2 : ScatterDims S4x186624x64 S4x12000x2 S4x12000x64 where
  updateWindowDims := [2]
  insertedWindowDims := [0, 1]
  scatterDimsToOperandDims := [0, 1]
  indexVectorDim := 2
  wf := scatter_S4x186624x64_S4x12000x2_S4x12000x64_2_01_01_2_wf

class Facts : Prop extends Facts₀ where

variable [Facts]
-- ==== Proof.Spec.lean ====
/-
  The pillar scatter as one function of the argument arrays.

  A pillar p of batch b has a feature row pil(b, p, ·), an occupancy word has(b, p, 0) and two grid
  coordinates coord(b, p, 1), coord(b, p, 2); its flat cell index is coord₁ · 432 + coord₂ in 32-bit
  two's-complement arithmetic. Cell g of feature f of batch b of the pseudo-image holds the sum of
  pil(b, p, f) over the occupied pillars p (has = 1) whose flat index is g; the image is that table
  read at g = x · 432 + y.
-/
import Idealize.ShloMosaic.PureOps.Ideal
import Idealize.ShloMosaic.Lib.ValueIdx

noncomputable section

open scoped BigOperators

namespace Cert.PillarScatter

open Idealize.ShloMosaic Idealize.ShloMosaic.ValueIdx

/-- The flat cell index of pillar p of batch b, as both programs compute it. -/
def flat (coord : (⟨3, ![4, 12000, 3]⟩ : Shape).Idx → BitVec 32) (b : Fin 4) (p : Fin 12000) : BitVec 32 :=
  coord (ix3 b p 1) * 432#32 + coord (ix3 b p 2)

/-- Cell g of feature f of batch b: the occupied pillars of the batch that land on g, summed. -/
def cellSum (pil : (⟨3, ![4, 12000, 64]⟩ : Shape).Idx → EReal) (coord : (⟨3, ![4, 12000, 3]⟩ : Shape).Idx → BitVec 32)
    (has : (⟨3, ![4, 12000, 1]⟩ : Shape).Idx → BitVec 32) (b : Fin 4) (f : Fin 64) (g : ℕ) : EReal :=
  ∑ p : Fin 12000, if has (ix3 b p 0) = 1#32 ∧ flat coord b p = BitVec.ofNat 32 g then pil (ix3 b p f) else 0

/-- The pseudo-image: cell (x, y) is flat cell x · 432 + y. -/
def image (pil : (⟨3, ![4, 12000, 64]⟩ : Shape).Idx → EReal) (coord : (⟨3, ![4, 12000, 3]⟩ : Shape).Idx → BitVec 32)
    (has : (⟨3, ![4, 12000, 1]⟩ : Shape).Idx → BitVec 32) : (⟨4, ![4, 64, 432, 432]⟩ : Shape).Idx → EReal :=
  fun j => cellSum pil coord has (j 0) (j 1) ((j 2).val * 432 + (j 3).val)

/-- The same cell over the pillar axis padded to 12288 slots, as a product of three tables: the
    transposed features, the occupancy as a number (1 or 0) and the flat indices, compared with g. -/
def paddedSum (pT : (⟨3, ![4, 64, 12288]⟩ : Shape).Idx → EReal) (occ : (⟨3, ![4, 1, 12288]⟩ : Shape).Idx → EReal)
    (fl : (⟨3, ![4, 12288, 1]⟩ : Shape).Idx → BitVec 32) (b : Fin 4) (f : Fin 64) (g : ℕ) : EReal :=
  ∑ p : Fin 12288, (pT (ix3 b f p) * occ (ix3 b 0 p)) * (if fl (ix3 b p 0) = BitVec.ofNat 32 g then 1 else 0)

end Cert.PillarScatter

end
-- ==== Proof.PreFlat.lean ====
import proofs.«418659_j22342419873901_1_alg».proof.Proof.Gen.Pre_finite_inputs
import proofs.«418659_j22342419873901_1_alg».proof.Proof.Spec
import Idealize.ShloMosaic.Lib.ReduceAll
import Idealize.ShloMosaic.Lib.StableHlo.Predicate
import Idealize.ShloMosaic.Lib.Pipeline.Value

noncomputable section

open scoped BigOperators
open Idealize.ShloMosaic Idealize.ShloMosaic.ValueIdx

namespace Cert.PillarScatter

open Cert.Pre_finite_inputs in
/-- Column k of the coordinate array, cut out as a 4 × 12000 × 1 slab and flattened to 4 × 12000, holds at
    (b, p) the word coord(b, p, k): the flattening keeps the row-major position b · 12000 + p, and the slab's
    only column is column k of the array. -/
private theorem read_col (x1 : IVec S4x12000x3 32) (k : ℕ) (hk : k < 3)
    (hs : S4x12000x3.Slices ![0, 0, k] S4x12000x1) (hc : S4x12000x1.ShapeCasts S4x12000) (b : Fin 4) (p : Fin 12000) :
    shapeCast S4x12000 (extractStridedSlice S4x12000x1 ![0, 0, k] x1 hs) hc (ix2 b p) = x1 (ix3 b p ⟨k, hk⟩) := by
  rw [shapeCast_apply _ hc (ix2 b p) (ix3 b p 0)
      (by rw [Shape.rowMajor_val_three, Shape.rowMajor_val_two]
          show (b.val * 12000 + p.val) * 1 + 0 = b.val * 12000 + p.val; omega)]
  exact extractStridedSlice_apply ![0, 0, k] x1 hs (ix3 b p 0) (ix3 b p ⟨k, hk⟩) (fun a => match a with
    | ⟨0, _⟩ => by show b.val = 0 + b.val; omega
    | ⟨1, _⟩ => by show p.val = 0 + p.val; omega
    | ⟨2, _⟩ => by show k = k + 0; omega)

open Cert.Pre_finite_inputs in
/-- One element of the signed comparison u · c + v ≥ z that came out true, where at that element c is 432
    and z is 0: the two's-complement word u · 432 + v, read signed, is not negative. -/
private theorem nonneg_of_cmp {u v c z : IVec S4x12000 32} {i : S4x12000.Idx}
    (h : cmpi .sge (addi (muli u c) v) z i = 1#1) {a d : BitVec 32}
    (hu : u i = a) (hv : v i = d) (hc : c i = 432#32) (hz : z i = 0#32) : 0 ≤ (a * 432#32 + d).toInt := by
  have h3 : (z i).toInt ≤ (u i * c i + v i).toInt := IntOp.cmpi_sge.1 h
  rw [hz, hu, hc, hv, BitVec.toInt_zero] at h3
  exact h3

/-- Under the stated precondition every pillar's flat cell index is non-negative (read signed). -/
theorem flat_nonneg_of_pre {F : FTy → Type} [FloatOps F] (x0 : FVec F Cert.Pre_finite_inputs.S4x12000x64 .f32)
    (x1 : IVec Cert.Pre_finite_inputs.S4x12000x3 32) (x2 : IVec Cert.Pre_finite_inputs.S4x12000x1 32)
    (h : Cert.Pre_finite_inputs.fn (F := F) x0 x1 x2 = fun _ => 1#1) (b : Fin 4) (p : Fin 12000) :
    0 ≤ (flat x1 b p).toInt := by
  -- the predicate's one word is the AND of two whole-array ANDs; the second is the one over the comparisons
  have h0 := congrFun h ValueIdx.ix0
  dsimp only [Cert.Pre_finite_inputs.fn] at h0
  have h1 := (IntOp.andi_eq_one.1 h0).2
  haveI : Subsingleton Cert.Pre_finite_inputs.S_.Idx := ⟨fun a b => funext fun d => d.elim0⟩
  -- so the comparison at (b, p) is true
  have h2 := Host.reduce_andi_all _ _ _ _ _ h1 (ix2 b p)
  show 0 ≤ (x1 (ix3 b p 1) * 432#32 + x1 (ix3 b p 2)).toInt
  exact nonneg_of_cmp h2 (read_col x1 1 (by omega) _ _ b p) (read_col x1 2 (by omega) _ _ b p)
    (StableHlo.Predicate.bcast_scalar _ Cert.Pre_finite_inputs.Facts.h_S_ _ _)
    (StableHlo.Predicate.bcast_scalar _ Cert.Pre_finite_inputs.Facts.h_S_ _ _)

end Cert.PillarScatter

end
-- ==== Proof.RefValue.lean ====
import proofs.«418659_j22342419873901_1_alg».proof.Proof.Gen.ReferenceIdeal.Read
import proofs.«418659_j22342419873901_1_alg».proof.Proof.Spec
import Idealize.ShloMosaic.PureOps.Ideal.Laws

noncomputable section

open scoped BigOperators
open Idealize.ShloMosaic Idealize.ShloMosaic.ValueIdx

namespace Cert.PillarScatter

section Helpers

open Cert.ReferenceIdeal Cert.ReferenceIdeal.Gen Cert.ReferenceIdeal.Read

/-! ### The scatter's dimension numbers, read on update index (b', p, f')

Update window axis 2 goes to operand axis 2; operand axes 0 and 1 are inserted and are the targets of the two
components of the start index, which is read on the scatter indices' last axis. -/

/-- Component c of the start index of update (b', p, f') is read at (b', p, c). -/
theorem sc_siIdx (b' : Fin 4) (p : Fin 12000) (f' : Fin 64)
    (c : Fin scatter_S4x186624x64_S4x12000x2_S4x12000x64_2_01_01_2.scatterDimsToOperandDims.length) :
    scatter_S4x186624x64_S4x12000x2_S4x12000x64_2_01_01_2.siIdx (ix3 b' p f') c = ix3 b' p ⟨c.val, c.isLt⟩ := by
  funext a
  refine Fin.ext ?_
  match a with
  | ⟨0, _⟩ => rfl
  | ⟨1, _⟩ => rfl
  | ⟨2, _⟩ => rfl

theorem sc_start0 (idx : S4x12000x2.Idx → BitVec 32) (b' : Fin 4) (p : Fin 12000) (f' : Fin 64) :
    scatter_S4x186624x64_S4x12000x2_S4x12000x64_2_01_01_2.start (ix3 b' p f') idx 0 = (idx (ix3 b' p 0)).toInt := by
  unfold ScatterDims.start
  rw [dif_pos (by decide), sc_siIdx]
  rfl

theorem sc_start1 (idx : S4x12000x2.Idx → BitVec 32) (b' : Fin 4) (p : Fin 12000) (f' : Fin 64) :
    scatter_S4x186624x64_S4x12000x2_S4x12000x64_2_01_01_2.start (ix3 b' p f') idx 1 = (idx (ix3 b' p 1)).toInt := by
  unfold ScatterDims.start
  rw [dif_pos (by decide), sc_siIdx]
  rfl

theorem sc_start2 (idx : S4x12000x2.Idx → BitVec 32) (b' : Fin 4) (p : Fin 12000) (f' : Fin 64) :
    scatter_S4x186624x64_S4x12000x2_S4x12000x64_2_01_01_2.start (ix3 b' p f') idx 2 = 0 := by
  unfold ScatterDims.start
  rw [dif_neg (by decide)]

theorem sc_window0 (b' : Fin 4) (p : Fin 12000) (f' : Fin 64) :
    scatter_S4x186624x64_S4x12000x2_S4x12000x64_2_01_01_2.window (ix3 b' p f') 0 = 0 := by
  unfold ScatterDims.window
  rw [dif_neg (by decide)]

theorem sc_window1 (b' : Fin 4) (p : Fin 12000) (f' : Fin 64) :
    scatter_S4x186624x64_S4x12000x2_S4x12000x64_2_01_01_2.window (ix3 b' p f') 1 = 0 := by
  unfold ScatterDims.window
  rw [dif_neg (by decide)]

theorem sc_window2 (b' : Fin 4) (p : Fin 12000) (f' : Fin 64) :
    scatter_S4x186624x64_S4x12000x2_S4x12000x64_2_01_01_2.window (ix3 b' p f') 2 = f'.val := by
  unfold ScatterDims.window
  rw [dif_pos (by decide)]
  rfl

/-- Update (b', p, f') lands on operand element (b, g, f) exactly when its start index, read signed, is (b, g)
    and its feature coordinate is f. -/
theorem sc_resultIdx_iff (idx : S4x12000x2.Idx → BitVec 32) (b' : Fin 4) (p : Fin 12000) (f' : Fin 64)
    (b : Fin 4) (g : Fin 186624) (f : Fin 64) :
    scatter_S4x186624x64_S4x12000x2_S4x12000x64_2_01_01_2.resultIdx? (ix3 b' p f') idx = some (ix3 b g f) ↔
      (idx (ix3 b' p 0)).toInt = b.val ∧ (idx (ix3 b' p 1)).toInt = g.val ∧ f' = f := by
  unfold ScatterDims.resultIdx?
  constructor
  · intro h
    split at h
    · rename_i hh
      have e := Option.some.inj h
      have e0 : (scatter_S4x186624x64_S4x12000x2_S4x12000x64_2_01_01_2.start (ix3 b' p f') idx 0
          + (scatter_S4x186624x64_S4x12000x2_S4x12000x64_2_01_01_2.window (ix3 b' p f') 0 : ℕ)).toNat = b.val :=
        congrArg (fun k => (k 0).val) e
      have e1 : (scatter_S4x186624x64_S4x12000x2_S4x12000x64_2_01_01_2.start (ix3 b' p f') idx 1
          + (scatter_S4x186624x64_S4x12000x2_S4x12000x64_2_01_01_2.window (ix3 b' p f') 1 : ℕ)).toNat = g.val :=
        congrArg (fun k => (k 1).val) e
      have e2 : (scatter_S4x186624x64_S4x12000x2_S4x12000x64_2_01_01_2.start (ix3 b' p f') idx 2
          + (scatter_S4x186624x64_S4x12000x2_S4x12000x64_2_01_01_2.window (ix3 b' p f') 2 : ℕ)).toNat = f.val :=
        congrArg (fun k => (k 2).val) e
      have h0 := (hh 0).1
      have h1 := (hh 1).1
      rw [sc_start0, sc_window0] at e0 h0
      rw [sc_start1, sc_window1] at e1 h1
      rw [sc_start2, sc_window2] at e2
      refine ⟨by omega, by omega, Fin.ext (by omega)⟩
    · exact absurd h (by simp)
  · rintro ⟨h0, h1, rfl⟩
    have hh : ∀ a, 0 ≤ scatter_S4x186624x64_S4x12000x2_S4x12000x64_2_01_01_2.start (ix3 b' p f') idx a
          + (scatter_S4x186624x64_S4x12000x2_S4x12000x64_2_01_01_2.window (ix3 b' p f') a : ℕ) ∧
        scatter_S4x186624x64_S4x12000x2_S4x12000x64_2_01_01_2.start (ix3 b' p f') idx a
          + (scatter_S4x186624x64_S4x12000x2_S4x12000x64_2_01_01_2.window (ix3 b' p f') a : ℕ) < (S4x186624x64.size a : ℕ) := by
      intro a
      match a with
      | ⟨0, _⟩ =>
        show 0 ≤ scatter_S4x186624x64_S4x12000x2_S4x12000x64_2_01_01_2.start (ix3 b' p f') idx 0
          + (scatter_S4x186624x64_S4x12000x2_S4x12000x64_2_01_01_2.window (ix3 b' p f') 0 : ℕ) ∧
          scatter_S4x186624x64_S4x12000x2_S4x12000x64_2_01_01_2.start (ix3 b' p f') idx 0
          + (scatter_S4x186624x64_S4x12000x2_S4x12000x64_2_01_01_2.window (ix3 b' p f') 0 : ℕ) < ((4 : ℕ) : ℤ)
        rw [sc_start0, sc_window0, h0]; have := b.isLt; omega
      | ⟨1, _⟩ =>
        show 0 ≤ scatter_S4x186624x64_S4x12000x2_S4x12000x64_2_01_01_2.start (ix3 b' p f') idx 1
          + (scatter_S4x186624x64_S4x12000x2_S4x12000x64_2_01_01_2.window (ix3 b' p f') 1 : ℕ) ∧
          scatter_S4x186624x64_S4x12000x2_S4x12000x64_2_01_01_2.start (ix3 b' p f') idx 1
          + (scatter_S4x186624x64_S4x12000x2_S4x12000x64_2_01_01_2.window (ix3 b' p f') 1 : ℕ) < ((186624 : ℕ) : ℤ)
        rw [sc_start1, sc_window1, h1]; have := g.isLt; omega
      | ⟨2, _⟩ =>
        show 0 ≤ scatter_S4x186624x64_S4x12000x2_S4x12000x64_2_01_01_2.start (ix3 b' p f') idx 2
          + (scatter_S4x186624x64_S4x12000x2_S4x12000x64_2_01_01_2.window (ix3 b' p f') 2 : ℕ) ∧
          scatter_S4x186624x64_S4x12000x2_S4x12000x64_2_01_01_2.start (ix3 b' p f') idx 2
          + (scatter_S4x186624x64_S4x12000x2_S4x12000x64_2_01_01_2.window (ix3 b' p f') 2 : ℕ) < ((64 : ℕ) : ℤ)
        rw [sc_start2, sc_window2]; have := f'.isLt; omega
    rw [dif_pos hh]
    congr 1
    funext a
    refine Fin.ext ?_
    match a with
    | ⟨0, _⟩ =>
      show (scatter_S4x186624x64_S4x12000x2_S4x12000x64_2_01_01_2.start (ix3 b' p f') idx 0
          + (scatter_S4x186624x64_S4x12000x2_S4x12000x64_2_01_01_2.window (ix3 b' p f') 0 : ℕ)).toNat = b.val
      rw [sc_start0, sc_window0, h0]; omega
    | ⟨1, _⟩ =>
      show (scatter_S4x186624x64_S4x12000x2_S4x12000x64_2_01_01_2.start (ix3 b' p f') idx 1
          + (scatter_S4x186624x64_S4x12000x2_S4x12000x64_2_01_01_2.window (ix3 b' p f') 1 : ℕ)).toNat = g.val
      rw [sc_start1, sc_window1, h1]; omega
    | ⟨2, _⟩ =>
      show (scatter_S4x186624x64_S4x12000x2_S4x12000x64_2_01_01_2.start (ix3 b' p f') idx 2
          + (scatter_S4x186624x64_S4x12000x2_S4x12000x64_2_01_01_2.window (ix3 b' p f') 2 : ℕ)).toNat = f'.val
      rw [sc_start2, sc_window2]; omega

/-! ### The concatenate of two one-column arrays, read at columns 0 and 1 -/

theorem concat_col0 (A B : S4x12000x1.Idx → BitVec 32)
    (h : Shape.Concatenates [S4x12000x1, S4x12000x1] S4x12000x2 2) (b' : Fin 4) (p : Fin 12000) :
    concatenate S4x12000x2 2 [⟨S4x12000x1, A⟩, ⟨S4x12000x1, B⟩] h (ix3 b' p 0) = A (ix3 b' p 0) := by
  unfold concatenate
  show A _ = A _
  congr 1
  funext a
  refine Fin.ext ?_
  match a with
  | ⟨0, _⟩ => rfl
  | ⟨1, _⟩ => rfl
  | ⟨2, _⟩ => rfl

theorem concat_col1 (A B : S4x12000x1.Idx → BitVec 32)
    (h : Shape.Concatenates [S4x12000x1, S4x12000x1] S4x12000x2 2) (b' : Fin 4) (p : Fin 12000) :
    concatenate S4x12000x2 2 [⟨S4x12000x1, A⟩, ⟨S4x12000x1, B⟩] h (ix3 b' p 1) = B (ix3 b' p 0) := by
  unfold concatenate
  show B _ = B _
  congr 1
  funext a
  refine Fin.ext ?_
  match a with
  | ⟨0, _⟩ => rfl
  | ⟨1, _⟩ => rfl
  | ⟨2, _⟩ => rfl

/-! ### Words -/

/-- A signed "less than zero" test of a word whose signed reading is not negative is the bit 0. -/
theorem cmpi_slt_zero_of_nonneg (X : BitVec 32) (h : 0 ≤ X.toInt) : IntOp.cmpi .slt X 0#32 = 0#1 := by
  have hs : X.slt 0#32 = false := by
    unfold BitVec.slt
    exact decide_eq_false (by rw [show (0#32 : BitVec 32).toInt = 0 from rfl]; omega)
  show BitVec.ofBool (X.slt 0#32) = 0#1
  rw [hs]; rfl

/-- An equality test of two words, as a proposition. -/
theorem select_cmpi_eq {α : Type} (X Y : BitVec 32) (A B : α) :
    Scalar.select (IntOp.cmpi .eq X Y) A B = if X = Y then A else B := by
  by_cases h : X = Y
  · subst h
    have : IntOp.cmpi .eq X X = 1#1 := by
      show BitVec.ofBool (X == X) = 1#1
      rw [beq_self_eq_true]; rfl
    rw [this, select_one, if_pos rfl]
  · have : IntOp.cmpi .eq X Y = 0#1 := by
      show BitVec.ofBool (X == Y) = 0#1
      rw [beq_eq_false_iff_ne.mpr h]; rfl
    rw [this, select_zero, if_neg h]

/-- A small natural number's word reads back, signed, as the number. -/
theorem toInt_ofNat_small (g : ℕ) (hg : g < 186624) : (BitVec.ofNat 32 g).toInt = (g : ℤ) := by
  have h1 : (BitVec.ofNat 32 g).toNat = g := by
    rw [BitVec.toNat_ofNat]; exact Nat.mod_eq_of_lt (by omega)
  rw [BitVec.toInt_eq_toNat_of_lt (by rw [h1]; omega), h1]

/-- A word whose signed reading is the small natural number g is g's word, and conversely. -/
theorem toInt_eq_small_iff (X : BitVec 32) (g : ℕ) (hg : g < 186624) : X.toInt = (g : ℤ) ↔ X = BitVec.ofNat 32 g := by
  constructor
  · intro h
    exact BitVec.eq_of_toInt_eq (by rw [h, toInt_ofNat_small g hg])
  · rintro rfl
    exact toInt_ofNat_small g hg

/-! ### The stages read at an index -/

/-- The batch column of the scatter indices holds the batch number. -/
theorem v28_col0 (x1 : S4x12000x3.Idx → BitVec 32) (b' : Fin 4) (p : Fin 12000) :
    (val_main_v28 (F := Ideal) x1 (ix3 b' p 0)).toInt = (b'.val : ℤ) := by
  unfold val_main_v28
  rw [concat_col0]
  rw [val_main_v26_apply, val_main_v25_apply, val_main_v19_apply, val_main_v16_apply, val_main_v18_apply,
    val_main_v14_apply, val_main_v15_apply, val_main_v13_apply, val_main_c_2_apply, val_main_v17_apply,
    val_main_c_3_apply]
  show (Scalar.select (IntOp.cmpi .slt (BitVec.ofNat 32 b'.val) 0#32) (IntOp.addi (BitVec.ofNat 32 b'.val) 4#32)
    (BitVec.ofNat 32 b'.val)).toInt = (b'.val : ℤ)
  have hb := b'.isLt
  rw [cmpi_slt_zero_of_nonneg _ (by rw [toInt_ofNat_small _ (by omega)]; omega), select_zero,
    toInt_ofNat_small _ (by omega)]

/-- The index column of the scatter indices holds the flat cell index, when that is not negative. -/
theorem v28_col1 (x1 : S4x12000x3.Idx → BitVec 32) (hflat : ∀ b p, 0 ≤ (flat x1 b p).toInt) (b' : Fin 4) (p : Fin 12000) :
    val_main_v28 (F := Ideal) x1 (ix3 b' p 1) = flat x1 b' p := by
  unfold val_main_v28
  rw [concat_col1]
  rw [val_main_v27_apply, val_main_v24_apply, val_main_v21_apply, val_main_v23_apply, val_main_v9_apply,
    val_main_v6_apply, val_main_v4_apply, val_main_v3_apply, val_main_v5_apply, val_main_c_0_apply,
    val_main_v8_apply, val_main_v7_apply, val_main_v20_apply, val_main_c_4_apply, val_main_v22_apply,
    val_main_c_5_apply]
  have e1 : idx_main_v3 (idx_main_v4 (idx_main_v27 (ix3 b' p (0 : Fin 1)))) = ix3 b' p 1 := by
    funext a
    refine Fin.ext ?_
    have hb := b'.isLt
    have hp := p.isLt
    match a with
    | ⟨0, _⟩ => show (b'.val * 12000 + p.val) / 12000 = b'.val; omega
    | ⟨1, _⟩ => show (b'.val * 12000 + p.val) / 1 % 12000 = p.val; omega
    | ⟨2, _⟩ => rfl
  have e2 : idx_main_v7 (idx_main_v8 (idx_main_v27 (ix3 b' p (0 : Fin 1)))) = ix3 b' p 2 := by
    funext a
    refine Fin.ext ?_
    have hb := b'.isLt
    have hp := p.isLt
    match a with
    | ⟨0, _⟩ => show (b'.val * 12000 + p.val) / 12000 = b'.val; omega
    | ⟨1, _⟩ => show (b'.val * 12000 + p.val) / 1 % 12000 = p.val; omega
    | ⟨2, _⟩ => rfl
  rw [e1, e2]
  show Scalar.select (IntOp.cmpi .slt (flat x1 b' p) 0#32) _ (flat x1 b' p) = flat x1 b' p
  rw [cmpi_slt_zero_of_nonneg _ (hflat b' p), select_zero]

/-- The updates: a pillar's feature where the pillar is occupied, zero elsewhere. -/
theorem v11_at (x0 : S4x12000x64.Idx → EReal) (x2 : S4x12000x1.Idx → BitVec 32) (b' : Fin 4) (p : Fin 12000) (f' : Fin 64) :
    val_main_v11 (F := Ideal) x0 x2 (ix3 b' p f') = if x2 (ix3 b' p 0) = 1#32 then x0 (ix3 b' p f') else 0 := by
  rw [val_main_v11_apply, val_main_call0_v0_apply, val_main_v10_apply, val_main_v2_apply, val_main_v0_apply,
    val_main_v1_apply, val_main_c_apply, val_main_call0_v1_apply, val_main_cst_apply]
  have e : idx_main_v0 (idx_main_v10 (idx_main_call0_v0 (ix3 b' p f'))) = ix3 b' p 0 := by
    funext a
    refine Fin.ext ?_
    have hb := b'.isLt
    have hp := p.isLt
    match a with
    | ⟨0, _⟩ => show (b'.val * 12000 + p.val) / 12000 = b'.val; omega
    | ⟨1, _⟩ => show (b'.val * 12000 + p.val) / 1 % 12000 = p.val; omega
    | ⟨2, _⟩ => rfl
  rw [e, select_cmpi_eq]
  show (if x2 (ix3 b' p 0) = 1#32 then x0 (ix3 b' p f') else Ideal.ofBits .f32 0x00000000#32) = _
  rw [Ideal.ofBits_zero_f32]

/-! ### A sum over a rank-3 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (F : (⟨3, ![n0, n1, n2]⟩ : Shape).Idx → M) :
    ∑ i, F i = ∑ a : Fin n0, ∑ b : Fin n1, ∑ c : Fin n2, F (ix3 a b c) := by
  rw [← Equiv.sum_comp (idxEquiv3 (n0 := n0) (n1 := n1) (n2 := n2)).symm F, Fintype.sum_prod_type]
  refine Finset.sum_congr rfl fun a _ => ?_
  rw [Fintype.sum_prod_type]
  rfl

/-! ### The scatter read at an operand element -/

/-- Element (b, g, f) of the scattered table is the cell sum: the zero operand plus the updates that land there. -/
theorem v29_at (x0 : S4x12000x64.Idx → EReal) (x1 : S4x12000x3.Idx → BitVec 32) (x2 : S4x12000x1.Idx → BitVec 32)
    (hflat : ∀ b p, 0 ≤ (flat x1 b p).toInt) (b : Fin 4) (g : Fin 186624) (f : Fin 64) :
    val_main_v29 (F := Ideal) x0 x1 x2 (ix3 b g f) = cellSum x0 x1 x2 b f g.val := by
  unfold val_main_v29 Host.scatterAdd
  rw [Ideal.hostScatterAdd_def]
  unfold Ideal.hostScatterAdd
  rw [val_main_v12_apply, val_main_cst_1_apply]
  show Ideal.ofBits .f32 0x00000000#32 + _ = _
  rw [Ideal.ofBits_zero_f32, zero_add, Finset.sum_filter, sum_idx3]
  unfold cellSum
  have hgl := g.isLt
  -- only batch b contributes
  rw [Finset.sum_eq_single b]
  · refine Finset.sum_congr rfl fun p _ => ?_
    -- only feature f contributes
    rw [Finset.sum_eq_single f]
    · rw [v11_at]
      by_cases hh : x2 (ix3 b p 0) = 1#32
      · rw [if_pos hh]
        by_cases hfl : flat x1 b p = BitVec.ofNat 32 g.val
        · rw [if_pos ((sc_resultIdx_iff _ b p f b g f).mpr
            ⟨v28_col0 x1 b p, by rw [v28_col1 x1 hflat, hfl, toInt_ofNat_small _ hgl], rfl⟩), if_pos ⟨hh, hfl⟩]
        · rw [if_neg (fun hc => hfl ((toInt_eq_small_iff _ _ hgl).mp
            (by rw [← v28_col1 x1 hflat]; exact ((sc_resultIdx_iff _ b p f b g f).mp hc).2.1))),
            if_neg (fun hc => hfl hc.2)]
      · rw [if_neg hh, ite_self, if_neg (fun hc => hh hc.1)]
    · intro f' _ hne
      rw [if_neg (fun hc => hne ((sc_resultIdx_iff _ b p f' b g f).mp hc).2.2)]
    · intro hc; exact absurd (Finset.mem_univ f) hc
  · intro b' _ hne
    refine Finset.sum_eq_zero fun p _ => Finset.sum_eq_zero fun f' _ => ?_
    rw [if_neg (fun hc => hne (Fin.ext (by
      have := ((sc_resultIdx_iff _ b' p f' b g f).mp hc).1
      rw [v28_col0] at this
      exact_mod_cast this)))]
  · intro hc; exact absurd (Finset.mem_univ b) hc

end Helpers

/-- The reference's result, stage by stage, is the pseudo-image, when no flat index is negative. -/
theorem ref_image (x0 : (⟨3, ![4, 12000, 64]⟩ : Shape).Idx → EReal) (x1 : (⟨3, ![4, 12000, 3]⟩ : Shape).Idx → BitVec 32)
    (x2 : (⟨3, ![4, 12000, 1]⟩ : Shape).Idx → BitVec 32) (hflat : ∀ b p, 0 ≤ (flat x1 b p).toInt) :
    Cert.ReferenceIdeal.Read.val_main_v31 (F := Ideal) x0 x1 x2 = image x0 x1 x2 := by
  funext i
  obtain ⟨b, f, x, y, rfl⟩ : ∃ b f x y, i = ix4 b f x y := ⟨_, _, _, _, eq_ix4 i⟩
  rw [Cert.ReferenceIdeal.Read.val_main_v31_apply, Cert.ReferenceIdeal.Read.val_main_v30_apply]
  have hb := b.isLt
  have hf := f.isLt
  have hx := x.isLt
  have hy := y.isLt
  have hg : x.val * 432 + y.val < 186624 := by omega
  have e : Cert.ReferenceIdeal.Read.idx_main_v30 (Cert.ReferenceIdeal.Read.idx_main_v31 (ix4 b f x y))
      = ix3 b ⟨x.val * 432 + y.val, hg⟩ f := by
    funext a
    refine Fin.ext ?_
    match a with
    | ⟨0, _⟩ => show (((b.val * 432 + x.val) * 432 + y.val) * 64 + f.val) / 11943936 = b.val; omega
    | ⟨1, _⟩ => show (((b.val * 432 + x.val) * 432 + y.val) * 64 + f.val) / 64 % 186624 = x.val * 432 + y.val; omega
    | ⟨2, _⟩ => show (((b.val * 432 + x.val) * 432 + y.val) * 64 + f.val) % 64 = f.val; omega
  rw [e, v29_at x0 x1 x2 hflat]
  rfl

end Cert.PillarScatter

end
-- ==== Proof.KBody.lean ====
import proofs.«418659_j22342419873901_1_alg».proof.Proof.Gen.KernelIdeal.Frame
import proofs.«418659_j22342419873901_1_alg».proof.Proof.Spec
import Idealize.ShloMosaic.Lib.Pipeline.Value
import Idealize.ShloMosaic.Lib.Tactic
import Idealize.ShloMosaic.PureOps.Ideal.Laws
import Idealize.ShloMosaic.Lib.ValueLayout

noncomputable section

open scoped BigOperators
open Idealize.ShloMosaic Idealize.ShloMosaic.ValueIdx Idealize.ShloMosaic.TcCoe Idealize.SL.Sem Cert.KernelIdeal Cert.KernelIdeal.Gen

namespace Cert.KernelIdeal.Body

/-! ## The contraction's operand indices, axis by axis -/

theorem lhs_dot_0 (j : S64x6912.Idx) (q : dot_S64x768_S768x6912_S64x6912_1_0_0_1_n_n.contr.Idx) :
    (dot_S64x768_S768x6912_S64x6912_1_0_0_1_n_n.lhsIdx j q 0).val = (j 0).val := by
  unfold DotDims.lhsIdx
  rw [dif_neg (show ¬(0 : Fin S64x768.rank) ∈ dot_S64x768_S768x6912_S64x6912_1_0_0_1_n_n.lhsBatch by decide),
    dif_pos (show (0 : Fin S64x768.rank) ∈ dot_S64x768_S768x6912_S64x6912_1_0_0_1_n_n.lhsNonContracting by decide)]
  rfl

theorem lhs_dot_1 (j : S64x6912.Idx) (q : dot_S64x768_S768x6912_S64x6912_1_0_0_1_n_n.contr.Idx) :
    (dot_S64x768_S768x6912_S64x6912_1_0_0_1_n_n.lhsIdx j q 1).val = (q ⟨0, by decide⟩).val :=
  dot_S64x768_S768x6912_S64x6912_1_0_0_1_n_n.lhsIdx_val_of_single rfl j q

theorem rhs_dot_0 (j : S64x6912.Idx) (q : dot_S64x768_S768x6912_S64x6912_1_0_0_1_n_n.contr.Idx) :
    (dot_S64x768_S768x6912_S64x6912_1_0_0_1_n_n.rhsIdx j q 0).val = (q ⟨0, by decide⟩).val :=
  dot_S64x768_S768x6912_S64x6912_1_0_0_1_n_n.rhsIdx_val_of_single rfl j q

theorem rhs_dot_1 (j : S64x6912.Idx) (q : dot_S64x768_S768x6912_S64x6912_1_0_0_1_n_n.contr.Idx) :
    (dot_S64x768_S768x6912_S64x6912_1_0_0_1_n_n.rhsIdx j q 1).val = (j 1).val := by
  unfold DotDims.rhsIdx
  rw [dif_neg (show ¬(1 : Fin S768x6912.rank) ∈ dot_S64x768_S768x6912_S64x6912_1_0_0_1_n_n.rhsBatch by decide),
    dif_pos (show (1 : Fin S768x6912.rank) ∈ dot_S64x768_S768x6912_S64x6912_1_0_0_1_n_n.rhsNonContracting by decide)]
  rfl

/-- The product of a 64 x 768 by a 768 x 6912 table into the zero table, read at (f, g): the sum over the
    768 contracted slots of the two entries' product. -/
theorem matmul_at (lhs : FVec Ideal S64x768 .bf16) (rhs : FVec Ideal S768x6912 .bf16) (f : Fin 64) (gl : Fin 6912) :
    matmul dot_S64x768_S768x6912_S64x6912_1_0_0_1_n_n none lhs rhs (constant (F := Ideal) S64x6912 .f32 0x00000000#32) (ix2 f gl)
      = ∑ q : Fin 768, lhs (ix2 f q) * rhs (ix2 q gl) := by
  simp only [matmul]
  rw [Ideal.matmul_constant_zero_apply,
    ← Equiv.sum_comp (contrEquiv1 dot_S64x768_S768x6912_S64x6912_1_0_0_1_n_n 768 rfl rfl).symm]
  refine Finset.sum_congr rfl fun k _ => ?_
  have hk := contrEquiv1_symm_val dot_S64x768_S768x6912_S64x6912_1_0_0_1_n_n 768 rfl rfl k
  have el : dot_S64x768_S768x6912_S64x6912_1_0_0_1_n_n.lhsIdx (ix2 f gl)
      ((contrEquiv1 dot_S64x768_S768x6912_S64x6912_1_0_0_1_n_n 768 rfl rfl).symm k) = ix2 f k :=
    funext fun a => Fin.ext (by
      match a with
      | ⟨0, _⟩ => exact lhs_dot_0 _ _
      | ⟨1, _⟩ => exact (lhs_dot_1 _ _).trans hk)
  have er : dot_S64x768_S768x6912_S64x6912_1_0_0_1_n_n.rhsIdx (ix2 f gl)
      ((contrEquiv1 dot_S64x768_S768x6912_S64x6912_1_0_0_1_n_n 768 rfl rfl).symm k) = ix2 k gl :=
    funext fun a => Fin.ext (by
      match a with
      | ⟨0, _⟩ => exact (rhs_dot_0 _ _).trans hk
      | ⟨1, _⟩ => exact rhs_dot_1 _ _)
  rw [el, er]

/-! ## Layout and words at an index -/

/-- A column [a, 1] broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator of equality of two 32-bit words, widened and converted: the number 1 or 0. -/
theorem onehot_val (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · rw [if_pos h, beq_iff_eq.mpr h]
    have : ((BitVec.ofBool true).setWidth 32).toInt = 1 := by decide
    rw [this]; simp
  · rw [if_neg h, beq_eq_false_iff_ne.mpr h]
    have : ((BitVec.ofBool false).setWidth 32).toInt = 0 := by decide
    rw [this]; simp

/-- The block's cell numbers: the block index times 6912 plus the lane, as one 32-bit word. -/
theorem cell_word (b g : ℕ) :
    IntOp.addi (Scalar.muli (BitVec.ofNat 32 b) 6912#32) (BitVec.ofNat 32 (0 * 6912 + g)) = BitVec.ofNat 32 (b * 6912 + g) := by
  show BitVec.ofNat 32 b * BitVec.ofNat 32 6912 + BitVec.ofNat 32 (0 * 6912 + g) = _
  rw [Nat.zero_mul, Nat.zero_add, BitVec.ofNat_add, BitVec.ofNat_mul]

/-! ## One trip's yield at an entry -/

/-- One trip's yield at entry (f, g) of the 64 x 6912 accumulator: the carried entry plus, over the 768
    slots loaded, the feature times the occupancy times the indicator that the slot's flat index is the
    block's cell. -/
theorem pay2_apply (i : grid0.Coords) (acc : FVec Ideal S64x6912 .f32) (v13 : Vec Ideal S1x64x768 .f32)
    (v16 : Vec Ideal S1x1x768 .f32) (v19 : Vec Ideal S1x768x1 .i32) (f : Fin 64) (gl : Fin 6912) :
    (k0_pay2 (F := Ideal) i acc v13 v16 v19 : S64x6912.Idx → EReal) (ix2 f gl)
      = (acc : S64x6912.Idx → EReal) (ix2 f gl)
        + ∑ q : Fin 768, ((v13 : S1x64x768.Idx → EReal) (ix3 0 f q) * (v16 : S1x1x768.Idx → EReal) (ix3 0 0 q))
            * (if (v19 : S1x768x1.Idx → BitVec 32) (ix3 0 q 0) = BitVec.ofNat 32 ((i 1).val * 6912 + gl.val) then 1 else 0) := by
  unfold k0_pay2
  dsimp only
  rw [addf_apply]
  refine (congrArg ((acc : S64x6912.Idx → EReal) (ix2 f gl) + ·) (matmul_at _ _ f gl)).trans ?_
  refine congrArg ((acc : S64x6912.Idx → EReal) (ix2 f gl) + ·) (Finset.sum_congr rfl fun q _ => ?_)
  rw [truncf_apply, truncf_apply, mulf_apply, sitofp_apply, extui_apply]
  rw [shapeCast_1ab_ab_apply, broadcastTo_1b_ab_apply, shapeCast_1ab_ab_apply]
  show _ * FloatOps.sitofp (F := Ideal) FTy.f32 (BitVec.setWidth 32 (IntOp.cmpi CmpIPredicate.eq
      (broadcastTo S768x6912 (shapeCast S768x1 v19 shapeCasts_S1x768x1_S768x1) broadcasts_S768x1_S768x6912 (ix2 q gl))
      (broadcastTo S768x6912 (addi (broadcast S1x6912 (Scalar.muli (BitVec.ofNat 32 (i 1).val) 6912#32))
          (iota Kind.tc S1x6912 32 [1] iota_S1x6912_d1_w32)) broadcasts_S1x6912_S768x6912 (ix2 q gl)))) = _
  rw [broadcastTo_a1_ab_apply, shapeCast_1ab_ab_apply, broadcastTo_1b_ab_apply]
  show _ * FloatOps.sitofp (F := Ideal) FTy.f32 (BitVec.setWidth 32 (IntOp.cmpi CmpIPredicate.eq
      ((v19 : S1x768x1.Idx → BitVec 32) (ix3 0 q 0))
      (IntOp.addi (Scalar.muli (BitVec.ofNat 32 (i 1).val) 6912#32) (BitVec.ofNat 32 (0 * 6912 + gl.val))))) = _
  rw [cell_word, onehot_val]

/-! ## One trip of the loop, over the resident blocks -/

theorem trips_eq : k0_t1_loop.trips = 16 := by decide

/-- Trip k yields the payload of the three loads at the trip's offsets. -/
theorem tripR_eq (c : Dev nD) (i : grid0.Coords) (a2 : Memref sig .tc .vmem S1x64x12288 .f32) (h2 : a2.IsWhole)
    (a3 : Memref sig .tc .vmem S1x1x12288 .f32) (h3 : a3.IsWhole) (a4 : Memref sig .tc .vmem S1x12288x1 .i32) (h4 : a4.IsWhole)
    (a5 : Memref sig .tc .vmem S1x64x6912 .f32) (h5 : a5.IsWhole)
    (x0 : Vec Ideal S1x64x12288 .f32) (x1 : Vec Ideal S1x1x12288 .f32) (x2 : Vec Ideal S1x12288x1 .i32)
    (k : Fin k0_t1_loop.trips) (acc : FVec Ideal S64x6912 .f32) :
    tripR_k0_t1 (F := Ideal) Variants.none c none i a2 h2 a3 h3 a4 h4 a5 h5 (h2.unread x0) (h3.unread x1) (h4.unread x2) k acc
      = k0_pay2 (F := Ideal) i acc
          (View.ld x0 (Rect.unit (s := S1x64x12288) (k0_off1 k) S1x64x768.size (k0_off1_inb k)))
          (View.ld x1 (Rect.unit (s := S1x1x12288) (k0_off2 k) S1x1x768.size (k0_off2_inb k)))
          (View.ld x2 (Rect.unit (s := S1x12288x1) (k0_off3 k) S1x768x1.size (k0_off3_inb k))) := by
  unfold tripR_k0_t1 trip_k0_t1
  dsimp only
  rw [View.readAt_eq_ld, View.readAt_eq_ld, View.readAt_eq_ld, h2.read_unread, h3.read_unread, h4.read_unread]

/-- The features loaded by trip k: slot q of the trip is slot 768 k + q of the block. -/
theorem ld0_apply (x0 : Vec Ideal S1x64x12288 .f32) (k : Fin k0_t1_loop.trips) (f : Fin 64) (q : Fin 768)
    (hq : 768 * k.val + q.val < 12288) :
    View.ld (Val := Elt Ideal) (e' := .f32) x0 (Rect.unit (s := S1x64x12288) (k0_off1 k) S1x64x768.size (k0_off1_inb k)) (ix3 0 f q)
      = x0 (ix3 0 f ⟨768 * k.val + q.val, hq⟩) := by
  have e := k0_off1_eq k
  show x0 _ = x0 _
  refine congrArg x0 (funext fun a => Fin.ext ?_)
  match a with
  | ⟨0, _⟩ => show k0_off1 k 0 + 1 * 0 = 0; rw [e]; rfl
  | ⟨1, _⟩ => show k0_off1 k 1 + 1 * f.val = f.val; rw [e]; show 0 + 1 * f.val = f.val; omega
  | ⟨2, _⟩ => show k0_off1 k 2 + 1 * q.val = 768 * k.val + q.val; rw [e]; show 768 * k.val + 1 * q.val = _; omega

/-- The occupancies loaded by trip k. -/
theorem ld1_apply (x1 : Vec Ideal S1x1x12288 .f32) (k : Fin k0_t1_loop.trips) (q : Fin 768)
    (hq : 768 * k.val + q.val < 12288) :
    View.ld (Val := Elt Ideal) (e' := .f32) x1 (Rect.unit (s := S1x1x12288) (k0_off2 k) S1x1x768.size (k0_off2_inb k)) (ix3 0 0 q)
      = x1 (ix3 0 0 ⟨768 * k.val + q.val, hq⟩) := by
  have e := k0_off2_eq k
  show x1 _ = x1 _
  refine congrArg x1 (funext fun a => Fin.ext ?_)
  match a with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * q.val = 768 * k.val + q.val; rw [e]; show 768 * k.val + 1 * q.val = _; omega

/-- The flat indices loaded by trip k. -/
theorem ld2_apply (x2 : Vec Ideal S1x12288x1 .i32) (k : Fin k0_t1_loop.trips) (q : Fin 768)
    (hq : 768 * k.val + q.val < 12288) :
    View.ld (Val := Elt Ideal) (e' := .i32) x2 (Rect.unit (s := S1x12288x1) (k0_off3 k) S1x768x1.size (k0_off3_inb k)) (ix3 0 q 0)
      = x2 (ix3 0 ⟨768 * k.val + q.val, hq⟩ 0) := by
  have e := k0_off3_eq k
  show x2 _ = x2 _
  refine congrArg x2 (funext fun a => Fin.ext ?_)
  match a with
  | ⟨0, _⟩ => show k0_off3 k 0 + 1 * 0 = 0; rw [e]; rfl
  | ⟨1, _⟩ => show k0_off3 k 1 + 1 * q.val = 768 * k.val + q.val; rw [e]; show 768 * k.val + 1 * q.val = _; omega
  | ⟨2, _⟩ => show k0_off3 k 2 + 1 * 0 = 0; rw [e]; rfl

/-! ## The loop: the slots summed so far -/

/-- Slot m of the resident blocks at entry (f, g): the feature times the occupancy times the indicator;
    zero past the 12288 slots. -/
def slotTerm (i : grid0.Coords) (x0 : Vec Ideal S1x64x12288 .f32) (x1 : Vec Ideal S1x1x12288 .f32)
    (x2 : Vec Ideal S1x12288x1 .i32) (f : Fin 64) (gl : Fin 6912) (m : ℕ) : EReal :=
  if h : m < 12288 then
    ((x0 : S1x64x12288.Idx → EReal) (ix3 0 f ⟨m, h⟩) * (x1 : S1x1x12288.Idx → EReal) (ix3 0 0 ⟨m, h⟩))
      * (if (x2 : S1x12288x1.Idx → BitVec 32) (ix3 0 ⟨m, h⟩ 0) = BitVec.ofNat 32 ((i 1).val * 6912 + gl.val) then 1 else 0)
  else 0

/-- Before trip n the carried entry (f, g) is the sum of the first 768 n slots. -/
theorem st_apply (c : Dev nD) (i : grid0.Coords) (a2 : Memref sig .tc .vmem S1x64x12288 .f32) (h2 : a2.IsWhole)
    (a3 : Memref sig .tc .vmem S1x1x12288 .f32) (h3 : a3.IsWhole) (a4 : Memref sig .tc .vmem S1x12288x1 .i32) (h4 : a4.IsWhole)
    (a5 : Memref sig .tc .vmem S1x64x6912 .f32) (h5 : a5.IsWhole)
    (x0 : Vec Ideal S1x64x12288 .f32) (x1 : Vec Ideal S1x1x12288 .f32) (x2 : Vec Ideal S1x12288x1 .i32)
    (f : Fin 64) (gl : Fin 6912) : ∀ n : ℕ, n ≤ 16 →
    (st_k0_t1 (F := Ideal) Variants.none c none i a2 h2 a3 h3 a4 h4 a5 h5 (h2.unread x0) (h3.unread x1) (h4.unread x2)
        (k0_pay1 (F := Ideal)) n : S64x6912.Idx → EReal) (ix2 f gl)
      = ∑ m ∈ Finset.range (768 * n), slotTerm i x0 x1 x2 f gl m := by
  intro n
  induction n with
  | zero =>
    intro _
    rw [st_k0_t1_zero, Nat.mul_zero, Finset.range_zero, Finset.sum_empty]
    exact Ideal.ofBits_zero_f32
  | succ n ih =>
    intro hn
    have hlt : n < k0_t1_loop.trips := by rw [trips_eq]; omega
    refine (congrFun (st_k0_t1_succ (F := Ideal) Variants.none c none i a2 h2 a3 h3 a4 h4 a5 h5 (h2.unread x0) (h3.unread x1)
      (h4.unread x2) (k0_pay1 (F := Ideal)) ⟨n, hlt⟩) (ix2 f gl)).trans ?_
    rw [tripR_eq, pay2_apply]
    show (st_k0_t1 (F := Ideal) Variants.none c none i a2 h2 a3 h3 a4 h4 a5 h5 (h2.unread x0) (h3.unread x1) (h4.unread x2)
        (k0_pay1 (F := Ideal)) n : S64x6912.Idx → EReal) (ix2 f gl) + _ = _
    rw [ih (by omega), show 768 * (n + 1) = 768 * n + 768 by omega, Finset.sum_range_add]
    refine congrArg (_ + ·) ?_
    rw [← Fin.sum_univ_eq_sum_range (fun x => slotTerm i x0 x1 x2 f gl (768 * n + x)) 768]
    refine Finset.sum_congr rfl fun q _ => ?_
    have hq : 768 * n + q.val < 12288 := by have := q.isLt; omega
    rw [ld0_apply x0 ⟨n, hlt⟩ f q hq, ld1_apply x1 ⟨n, hlt⟩ q hq, ld2_apply x2 ⟨n, hlt⟩ q hq]
    unfold slotTerm
    rw [dif_pos hq]

/-! ## The output block -/

/-- What one grid point leaves in the output block, entry by entry: over the 12288 pillar slots of the
    resident blocks, the feature times the occupancy times the indicator that the slot's flat index is the
    block's cell. -/
theorem out_apply (c : Dev nD) (i : grid0.Coords) (a2 : Memref sig .tc .vmem S1x64x12288 .f32) (h2 : a2.IsWhole)
    (a3 : Memref sig .tc .vmem S1x1x12288 .f32) (h3 : a3.IsWhole) (a4 : Memref sig .tc .vmem S1x12288x1 .i32) (h4 : a4.IsWhole)
    (a5 : Memref sig .tc .vmem S1x64x6912 .f32) (h5 : a5.IsWhole)
    (x0 : Vec Ideal S1x64x12288 .f32) (x1 : Vec Ideal S1x1x12288 .f32) (x2 : Vec Ideal S1x12288x1 .i32)
    (f : Fin 64) (gl : Fin 6912) :
    (out0_A_3 (F := Ideal) c i a2 h2 a3 h3 a4 h4 a5 h5 x0 x1 x2 : S1x64x6912.Idx → EReal) (ix3 0 f gl)
      = ∑ p : Fin 12288, ((x0 : S1x64x12288.Idx → EReal) (ix3 0 f p) * (x1 : S1x1x12288.Idx → EReal) (ix3 0 0 p))
          * (if (x2 : S1x12288x1.Idx → BitVec 32) (ix3 0 p 0) = BitVec.ofNat 32 ((i 1).val * 6912 + gl.val) then 1 else 0) := by
  have hz : (![0, 0, 0] : Fin 3 → Nat) = fun _ => 0 := by
    funext a; fin_cases a <;> rfl
  have ht : Scf.trips 0#32 (Scalar.addi 0#32 16#32) 1#32 = 16 := by decide
  unfold out0_A_3
  rw [View.read_writes_eq_canon _ _ _ (cover0_A_3 c i a2 h2 a3 h3 a4 h4 a5 h5 x0 x1 x2)]
  unfold kernelRun0_A
  dsimp only
  rw [View.canon_unit_zero hz]
  unfold k0_pay3
  rw [shapeCast_ab_1ab_apply, ht, st_apply c i a2 h2 a3 h3 a4 h4 a5 h5 x0 x1 x2 f gl 16 (Nat.le_refl 16),
    show 768 * 16 = 12288 from rfl, ← Fin.sum_univ_eq_sum_range (fun m => slotTerm i x0 x1 x2 f gl m) 12288]
  refine Finset.sum_congr rfl fun p _ => ?_
  unfold slotTerm
  rw [dif_pos p.isLt]

end Cert.KernelIdeal.Body

end
-- ==== Proof.KHost.lean ====
import proofs.«418659_j22342419873901_1_alg».proof.Proof.Gen.KernelIdeal.Frame
import proofs.«418659_j22342419873901_1_alg».proof.Proof.Spec
import Idealize.ShloMosaic.Lib.Pipeline.Value
import Idealize.ShloMosaic.Lib.ValueLayout
import Idealize.ShloMosaic.Lib.StableHlo.Run
import Idealize.ShloMosaic.Lib.KernelVsHost

noncomputable section

open scoped BigOperators
open Idealize.ShloMosaic Idealize.ShloMosaic.ValueIdx Idealize.ShloMosaic.TcCoe Idealize.SL.Sem Cert.KernelIdeal Cert.KernelIdeal.Gen Cert.PillarScatter

namespace Cert.KernelIdeal.Host

variable (m : (ℓ : Loc nD τ sig) → Buf (Elt Ideal) ℓ)

/-- The three argument arrays as launched, and the three arrays the region's windows read as it finds them,
    each named at its literal type. -/
abbrev pil (c : Dev nD) : S4x12000x64.Idx → EReal := m ((c : Thread nD τ).loc main_arg0)
abbrev coord (c : Dev nD) : S4x12000x3.Idx → BitVec 32 := m ((c : Thread nD τ).loc main_arg1)
abbrev has (c : Dev nD) : S4x12000x1.Idx → BitVec 32 := m ((c : Thread nD τ).loc main_arg2)
abbrev pT (c : Dev nD) : S4x64x12288.Idx → EReal := V (F := Ideal) m c main_v14
abbrev occ (c : Dev nD) : S4x1x12288.Idx → EReal := V (F := Ideal) m c main_v15
abbrev fl (c : Dev nD) : S4x12288x1.Idx → BitVec 32 := V (F := Ideal) m c main_v16

/-! ## The layout and elementwise operations read at an index, over variables of the literal types -/

/-- A pad by 288 high slots on the middle axis of a rank-three array, read at an index: the operand below
    slot 12000, the padding value from there on. -/
theorem pad3_apply {α : Type} (x : S4x12000x64.Idx → α) (v : S_.Idx → α) (b : Fin 4) (p : Fin 12288) (f : Fin 64) :
    pad S4x12288x64 ![0, 0, 0] ![0, 288, 0] ![0, 0, 0] x v pads_S4x12000x64_S4x12288x64_000_02880_000 h_S_ (ix3 b p f)
      = if h : p.val < 12000 then x (ix3 b ⟨p.val, h⟩ f) else v (Shape.Idx.first h_S_) := by
  by_cases h : p.val < 12000
  · rw [dif_pos h]
    exact pad_apply_of_inside _ _ _ x v _ h_S_ (ix3 b p f) (ix3 b ⟨p.val, h⟩ f) (fun a => match a with
      | ⟨0, _⟩ => by show b.val = 0 + b.val * (0 + 1); omega
      | ⟨1, _⟩ => by show p.val = 0 + p.val * (0 + 1); omega
      | ⟨2, _⟩ => by show f.val = 0 + f.val * (0 + 1); omega)
  · rw [dif_neg h]
    exact pad_apply_of_not_inside _ _ _ x v _ h_S_ (ix3 b p f) ⟨1, by decide⟩
      (by show ¬(0 ≤ p.val ∧ (p.val - 0) % (0 + 1) = 0 ∧ (p.val - 0) / (0 + 1) < 12000); omega)

/-- The same on the second axis of a rank-two array. -/
theorem pad2_apply {α : Type} (x : S4x12000.Idx → α) (v : S_.Idx → α) (b : Fin 4) (p : Fin 12288) :
    pad S4x12288 ![0, 0] ![0, 288] ![0, 0] x v pads_S4x12000_S4x12288_000_02880 h_S_ (ix2 b p)
      = if h : p.val < 12000 then x (ix2 b ⟨p.val, h⟩) else v (Shape.Idx.first h_S_) := by
  by_cases h : p.val < 12000
  · rw [dif_pos h]
    exact pad_apply_of_inside _ _ _ x v _ h_S_ (ix2 b p) (ix2 b ⟨p.val, h⟩) (fun a => match a with
      | ⟨0, _⟩ => by show b.val = 0 + b.val * (0 + 1); omega
      | ⟨1, _⟩ => by show p.val = 0 + p.val * (0 + 1); omega)
  · rw [dif_neg h]
    exact pad_apply_of_not_inside _ _ _ x v _ h_S_ (ix2 b p) ⟨1, by decide⟩
      (by show ¬(0 ≤ p.val ∧ (p.val - 0) % (0 + 1) = 0 ∧ (p.val - 0) / (0 + 1) < 12000); omega)

/-- The transpose exchanging the last two axes, read at an index. -/
theorem tr_apply {α : Type} (y : S4x12288x64.Idx → α) (b : Fin 4) (f : Fin 64) (p : Fin 12288) :
    transpose S4x64x12288 [0, 2, 1] y transposes_S4x12288x64_S4x64x12288_0_2_1 (ix3 b f p) = y (ix3 b p f) :=
  transpose_apply [0, 2, 1] y transposes_S4x12288x64_S4x64x12288_0_2_1 (ix3 b f p) (ix3 b p f) (fun a => match a with
    | ⟨0, _⟩ => rfl
    | ⟨1, _⟩ => rfl
    | ⟨2, _⟩ => rfl)

/-- The float padding value: the integer zero converted is the real zero. -/
theorem padval_f (j : S_.Idx) : (sitofp (F := Ideal) .f32 (constantI S_ 32 0#32) : S_.Idx → EReal) j = 0 := by
  show (((0#32 : BitVec 32).toInt : ℝ) : EReal) = 0
  simp

/-- The broadcast to 4×1×12288 (a unit middle axis), read at an index. -/
theorem bc15_apply {α : Type} (y : S4x12288.Idx → α) (b : Fin 4) (p : Fin 12288) :
    broadcastInDim S4x1x12288 ![0, 2] bcast_S4x12288_S4x1x12288_0_2 y (ix3 b 0 p) = y (ix2 b p) :=
  broadcastInDim_apply _ bcast_S4x12288_S4x1x12288_0_2 y (ix3 b 0 p) (ix2 b p) (fun a => match a with
    | ⟨0, _⟩ => by show b.val = if (4 : Nat) = 1 then 0 else b.val; rw [if_neg (by decide)]
    | ⟨1, _⟩ => by show p.val = if (12288 : Nat) = 1 then 0 else p.val; rw [if_neg (by decide)])

/-- The broadcast to 4×12288×1 (a unit last axis), read at an index. -/
theorem bc16_apply {α : Type} (y : S4x12288.Idx → α) (b : Fin 4) (p : Fin 12288) :
    broadcastInDim S4x12288x1 ![0, 1] bcast_S4x12288_S4x12288x1_0_1 y (ix3 b p 0) = y (ix2 b p) :=
  broadcastInDim_apply _ bcast_S4x12288_S4x12288x1_0_1 y (ix3 b p 0) (ix2 b p) (fun a => match a with
    | ⟨0, _⟩ => by show b.val = if (4 : Nat) = 1 then 0 else b.val; rw [if_neg (by decide)]
    | ⟨1, _⟩ => by show p.val = if (12288 : Nat) = 1 then 0 else p.val; rw [if_neg (by decide)])

/-- Dropping the unit last axis of a 4×12000×1 array, read at an index. -/
theorem rs_apply {α : Type} (x : S4x12000x1.Idx → α) (b : Fin 4) (q : Fin 12000) :
    shapeCast S4x12000 x shapeCasts_S4x12000x1_S4x12000 (ix2 b q) = x (ix3 b q 0) :=
  shapeCast_apply x shapeCasts_S4x12000x1_S4x12000 (ix2 b q) (ix3 b q 0)
    (by rewrite [Shape.rowMajor_val_three, Shape.rowMajor_val_two]
        show (b.val * 12000 + q.val) * 1 + 0 = b.val * 12000 + q.val; omega)

/-- Column 1 of the coordinate triples, read at an index. -/
theorem sl1_apply {α : Type} (x : S4x12000x3.Idx → α) (b : Fin 4) (q : Fin 12000) :
    extractStridedSlice S4x12000x1 ![0, 0, 1] x slices_S4x12000x3_S4x12000x1_0_0_1 (ix3 b q 0) = x (ix3 b q 1) :=
  extractStridedSlice_apply ![0, 0, 1] x slices_S4x12000x3_S4x12000x1_0_0_1 (ix3 b q 0) (ix3 b q 1) (fun a => match a with
    | ⟨0, _⟩ => by show b.val = 0 + b.val; omega
    | ⟨1, _⟩ => by show q.val = 0 + q.val; omega
    | ⟨2, _⟩ => rfl)

/-- Column 2 of the coordinate triples, read at an index. -/
theorem sl2_apply {α : Type} (x : S4x12000x3.Idx → α) (b : Fin 4) (q : Fin 12000) :
    extractStridedSlice S4x12000x1 ![0, 0, 2] x slices_S4x12000x3_S4x12000x1_0_0_2 (ix3 b q 0) = x (ix3 b q 2) :=
  extractStridedSlice_apply ![0, 0, 2] x slices_S4x12000x3_S4x12000x1_0_0_2 (ix3 b q 0) (ix3 b q 2) (fun a => match a with
    | ⟨0, _⟩ => by show b.val = 0 + b.val; omega
    | ⟨1, _⟩ => by show q.val = 0 + q.val; omega
    | ⟨2, _⟩ => rfl)

/-- The comparison of a word with 1, read unsigned as a number: 1 where the word is 1, else 0. -/
theorem occ_elem (w : S4x12000.Idx → BitVec 32) (i : S4x12000.Idx) :
    (uitofp (F := Ideal) .f32 (cmpi .eq w (broadcastInDim S4x12000 ![] bcast_S_S4x12000 (constantI S_ 32 1#32))) :
      S4x12000.Idx → EReal) i = if w i = 1#32 then 1 else 0 := by
  show (((BitVec.ofBool (w i == 1#32)).toNat : ℝ) : EReal) = _
  by_cases h : w i = 1#32
  · rw [if_pos h, h]; simp
  · rw [if_neg h]
    have hb : (w i == 1#32) = false := by simpa using h
    rw [hb]; simp

/-- The flat index elementwise: the first word times 432 plus the second. -/
theorem fl_elem (x y : S4x12000.Idx → BitVec 32) (i : S4x12000.Idx) :
    addi (muli x (broadcastInDim S4x12000 ![] bcast_S_S4x12000 (constantI S_ 32 432#32))) y i = x i * 432#32 + y i := rfl

/-! ## The three arrays read at an index -/

/-- The transposed features, zero on the 288 padding slots. -/
theorem pT_apply (c : Dev nD) (b : Fin 4) (f : Fin 64) (p : Fin 12288) :
    pT m c (ix3 b f p) = if h : p.val < 12000 then pil m c (ix3 b ⟨p.val, h⟩ f) else 0 := by
  have e : (V (F := Ideal) m c main_v14 : S4x64x12288.Idx → EReal) =
      transpose S4x64x12288 [0, 2, 1]
        (pad S4x12288x64 ![0, 0, 0] ![0, 288, 0] ![0, 0, 0] (pil m c)
          (sitofp (F := Ideal) .f32 (constantI S_ 32 0#32) : S_.Idx → EReal)
          pads_S4x12000x64_S4x12288x64_000_02880_000 h_S_)
        transposes_S4x12288x64_S4x64x12288_0_2_1 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  show (V (F := Ideal) m c main_v14 : S4x64x12288.Idx → EReal) (ix3 b f p) = _
  rw [e, tr_apply, pad3_apply, padval_f]

/-- The occupancy as a number: 1 where the word is 1, else 0; zero on the padding slots. -/
theorem occ_apply (c : Dev nD) (b : Fin 4) (p : Fin 12288) :
    occ m c (ix3 b 0 p) = if h : p.val < 12000 then (if has m c (ix3 b ⟨p.val, h⟩ 0) = 1#32 then 1 else 0) else 0 := by
  have e : (V (F := Ideal) m c main_v15 : S4x1x12288.Idx → EReal) =
      broadcastInDim S4x1x12288 ![0, 2] bcast_S4x12288_S4x1x12288_0_2
        (pad S4x12288 ![0, 0] ![0, 288] ![0, 0]
          (uitofp (F := Ideal) .f32 (cmpi .eq (shapeCast S4x12000 (has m c) shapeCasts_S4x12000x1_S4x12000)
            (broadcastInDim S4x12000 ![] bcast_S_S4x12000 (constantI S_ 32 1#32))) : S4x12000.Idx → EReal)
          (sitofp (F := Ideal) .f32 (constantI S_ 32 0#32) : S_.Idx → EReal)
          pads_S4x12000_S4x12288_000_02880 h_S_) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  show (V (F := Ideal) m c main_v15 : S4x1x12288.Idx → EReal) (ix3 b 0 p) = _
  rw [e, bc15_apply, pad2_apply, padval_f]
  by_cases h : p.val < 12000
  · rw [dif_pos h, dif_pos h, occ_elem, rs_apply]
  · rw [dif_neg h, dif_neg h]

/-- The flat indices, zero on the padding slots. -/
theorem fl_apply (c : Dev nD) (b : Fin 4) (p : Fin 12288) :
    fl m c (ix3 b p 0) = if h : p.val < 12000 then flat (coord m c) b ⟨p.val, h⟩ else 0#32 := by
  have e : (V (F := Ideal) m c main_v16 : S4x12288x1.Idx → BitVec 32) =
      broadcastInDim S4x12288x1 ![0, 1] bcast_S4x12288_S4x12288x1_0_1
        (pad S4x12288 ![0, 0] ![0, 288] ![0, 0]
          (addi
            (muli
              (shapeCast S4x12000 (extractStridedSlice S4x12000x1 ![0, 0, 1] (coord m c) slices_S4x12000x3_S4x12000x1_0_0_1)
                shapeCasts_S4x12000x1_S4x12000)
              (broadcastInDim S4x12000 ![] bcast_S_S4x12000 (constantI S_ 32 432#32)))
            (shapeCast S4x12000 (extractStridedSlice S4x12000x1 ![0, 0, 2] (coord m c) slices_S4x12000x3_S4x12000x1_0_0_2)
              shapeCasts_S4x12000x1_S4x12000) : S4x12000.Idx → BitVec 32)
          (constantI S_ 32 0#32)
          pads_S4x12000_S4x12288_000_02880 h_S_) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  show (V (F := Ideal) m c main_v16 : S4x12288x1.Idx → BitVec 32) (ix3 b p 0) = _
  rw [e, bc16_apply, pad2_apply]
  by_cases h : p.val < 12000
  · rw [dif_pos h, dif_pos h, fl_elem, rs_apply, rs_apply, sl1_apply, sl2_apply]
    rfl
  · rw [dif_neg h, dif_neg h]
    rfl

end Cert.KernelIdeal.Host

end
-- ==== Proof.PadSum.lean ====
/-
  The padded product form of a cell is the cell: the 288 padding slots contribute 0 · 0 · _ = 0, and on a
  real pillar slot the feature times the occupancy number (1 or 0) times the indicator of the flat index
  is the feature when the pillar is occupied and lands on the cell, and 0 otherwise.
-/
import proofs.«418659_j22342419873901_1_alg».proof.Proof.Spec
import Mathlib.Algebra.BigOperators.Fin

noncomputable section

open scoped BigOperators

namespace Cert.PillarScatter

open Idealize.ShloMosaic Idealize.ShloMosaic.ValueIdx

/-- A feature times an occupancy number times a landing indicator, as one conditional. -/
theorem term_eq (a : EReal) (H E : Prop) [Decidable H] [Decidable E] :
    (a * (if H then (1 : EReal) else 0)) * (if E then (1 : EReal) else 0) = if H ∧ E then a else 0 := by
  by_cases hH : H <;> by_cases hE : E <;> simp [hH, hE]

/-- The padded sum over 12288 slots of tables that are the argument arrays on the first 12000 slots and
    zero on the rest is the cell's sum over the 12000 pillars. -/
theorem paddedSum_eq_cellSum
    (pil : (⟨3, ![4, 12000, 64]⟩ : Shape).Idx → EReal) (coord : (⟨3, ![4, 12000, 3]⟩ : Shape).Idx → BitVec 32)
    (has : (⟨3, ![4, 12000, 1]⟩ : Shape).Idx → BitVec 32)
    (pT : (⟨3, ![4, 64, 12288]⟩ : Shape).Idx → EReal) (occ : (⟨3, ![4, 1, 12288]⟩ : Shape).Idx → EReal)
    (fl : (⟨3, ![4, 12288, 1]⟩ : Shape).Idx → BitVec 32)
    (hpT : ∀ (b : Fin 4) (f : Fin 64) (p : Fin 12288),
      pT (ix3 b f p) = if h : p.val < 12000 then pil (ix3 b ⟨p.val, h⟩ f) else 0)
    (hocc : ∀ (b : Fin 4) (p : Fin 12288),
      occ (ix3 b 0 p) = if h : p.val < 12000 then (if has (ix3 b ⟨p.val, h⟩ 0) = 1#32 then 1 else 0) else 0)
    (hfl : ∀ (b : Fin 4) (p : Fin 12288),
      fl (ix3 b p 0) = if h : p.val < 12000 then flat coord b ⟨p.val, h⟩ else 0#32)
    (b : Fin 4) (f : Fin 64) (g : ℕ) :
    paddedSum pT occ fl b f g = cellSum pil coord has b f g := by
  unfold paddedSum cellSum
  show ∑ p : Fin (12000 + 288), _ = _
  rw [Fin.sum_univ_add]
  have hpad : ∑ q : Fin 288, (pT (ix3 b f (Fin.natAdd 12000 q)) * occ (ix3 b 0 (Fin.natAdd 12000 q)))
      * (if fl (ix3 b (Fin.natAdd 12000 q) 0) = BitVec.ofNat 32 g then (1 : EReal) else 0) = 0 := by
    apply Finset.sum_eq_zero
    intro q _
    have hq : ¬ (Fin.natAdd 12000 q : Fin (12000 + 288)).val < 12000 := by simp
    rw [hpT b f (Fin.natAdd 12000 q), hocc b (Fin.natAdd 12000 q), dif_neg hq, dif_neg hq]
    simp
  rw [hpad, add_zero]
  apply Finset.sum_congr rfl
  intro q _
  have hq : (Fin.castAdd 288 q : Fin (12000 + 288)).val < 12000 := by simp
  have hqe : (⟨(Fin.castAdd 288 q : Fin (12000 + 288)).val, hq⟩ : Fin 12000) = q := Fin.ext (by simp)
  rw [hpT b f (Fin.castAdd 288 q), hocc b (Fin.castAdd 288 q), hfl b (Fin.castAdd 288 q), dif_pos hq, dif_pos hq,
    dif_pos hq, hqe]
  exact term_eq _ _ _

end Cert.PillarScatter

end
-- ==== Proof.KValue.lean ====
import proofs.«418659_j22342419873901_1_alg».proof.Proof.KBody
import proofs.«418659_j22342419873901_1_alg».proof.Proof.KHost
import proofs.«418659_j22342419873901_1_alg».proof.Proof.PadSum
import Idealize.ShloMosaic.Lib.Pipeline.Value
import Idealize.ShloMosaic.Lib.StableHlo.Run

noncomputable section

open scoped BigOperators
open Idealize.ShloMosaic Idealize.ShloMosaic.ValueIdx Idealize.ShloMosaic.TcCoe Idealize.SL.Sem Cert.KernelIdeal Cert.KernelIdeal.Gen Cert.KernelIdeal.Host Cert.PillarScatter
open Idealize.ShloMosaic.Pipeline (Dat)

namespace Cert.KernelIdeal.Value

variable (m : (ℓ : Loc nD τ sig) → Buf (Elt Ideal) ℓ) (ρ : Dev nD → PrngReg)

/-- Where each window's block sits at grid point t = 27 · b + tile: the three resident inputs at batch b,
    the output at batch b and cell tile `tile`. -/
theorem idx_facts : ∀ t : Fin cfg0.N,
    win0_0.index t (0 : Fin 3) = t.val / 27 ∧ win0_0.index t (1 : Fin 3) = 0 ∧ win0_0.index t (2 : Fin 3) = 0
    ∧ win0_1.index t (0 : Fin 3) = t.val / 27 ∧ win0_1.index t (1 : Fin 3) = 0 ∧ win0_1.index t (2 : Fin 3) = 0
    ∧ win0_2.index t (0 : Fin 3) = t.val / 27 ∧ win0_2.index t (1 : Fin 3) = 0 ∧ win0_2.index t (2 : Fin 3) = 0
    ∧ win0_3.index t (0 : Fin 3) = t.val / 27 ∧ win0_3.index t (1 : Fin 3) = 0 ∧ win0_3.index t (2 : Fin 3) = t.val % 27
    ∧ (grid0.coords t 1).val = t.val % 27 :=
  (by decide +kernel : ∀ t : Fin grid0.N, _)

theorem N_eq : cfg0.N = 108 := N_0

/-- The batch a grid point works on. -/
def batchOf (t : Fin cfg0.N) : Fin 4 := ⟨t.val / 27, by have h : t.val < 108 := lt_of_lt_of_eq t.isLt N_eq; omega⟩

/-- The three input blocks at a grid point, each named at its literal type. -/
abbrev blk0 (c : Dev nD) (t : Fin cfg0.N) : S1x64x12288.Idx → EReal := iblk (F := Ideal) m c 0 t
abbrev blk1 (c : Dev nD) (t : Fin cfg0.N) : S1x1x12288.Idx → EReal := iblk (F := Ideal) m c 1 t
abbrev blk2 (c : Dev nD) (t : Fin cfg0.N) : S1x12288x1.Idx → BitVec 32 := iblk (F := Ideal) m c 2 t

/-- The feature block of a grid point is its batch's slab of the transposed features. -/
theorem blk0_apply (c : Dev nD) (t : Fin cfg0.N) (f : Fin 64) (p : Fin 12288) :
    blk0 m c t (ix3 0 f p) = pT m c (ix3 (batchOf t) f p) := by
  obtain ⟨e0, e1, e2, -⟩ := idx_facts t
  show V m c main_v14 (((cfg0.win 0).blk t).view.emb (ix3 0 f p)) = V m c main_v14 (ix3 (batchOf t) f p)
  congr 1
  funext a; apply Fin.ext
  match a with
  | ⟨0, _⟩ => show win0_0.index t (0 : Fin 3) * 1 + 1 * 0 = t.val / 27; omega
  | ⟨1, _⟩ => show win0_0.index t (1 : Fin 3) * 64 + 1 * f.val = f.val; omega
  | ⟨2, _⟩ => show win0_0.index t (2 : Fin 3) * 12288 + 1 * p.val = p.val; omega

/-- The occupancy block of a grid point is its batch's row. -/
theorem blk1_apply (c : Dev nD) (t : Fin cfg0.N) (p : Fin 12288) :
    blk1 m c t (ix3 0 0 p) = occ m c (ix3 (batchOf t) 0 p) := by
  obtain ⟨-, -, -, e0, e1, e2, -⟩ := idx_facts t
  show V m c main_v15 (((cfg0.win 1).blk t).view.emb (ix3 0 0 p)) = V m c main_v15 (ix3 (batchOf t) 0 p)
  congr 1
  funext a; apply Fin.ext
  match a with
  | ⟨0, _⟩ => show win0_1.index t (0 : Fin 3) * 1 + 1 * 0 = t.val / 27; omega
  | ⟨1, _⟩ => show win0_1.index t (1 : Fin 3) * 1 + 1 * 0 = 0; omega
  | ⟨2, _⟩ => show win0_1.index t (2 : Fin 3) * 12288 + 1 * p.val = p.val; omega

/-- The flat-index block of a grid point is its batch's column. -/
theorem blk2_apply (c : Dev nD) (t : Fin cfg0.N) (p : Fin 12288) :
    blk2 m c t (ix3 0 p 0) = fl m c (ix3 (batchOf t) p 0) := by
  obtain ⟨-, -, -, -, -, -, e0, e1, e2, -⟩ := idx_facts t
  show V m c main_v16 (((cfg0.win 2).blk t).view.emb (ix3 0 p 0)) = V m c main_v16 (ix3 (batchOf t) p 0)
  congr 1
  funext a; apply Fin.ext
  match a with
  | ⟨0, _⟩ => show win0_2.index t (0 : Fin 3) * 1 + 1 * 0 = t.val / 27; omega
  | ⟨1, _⟩ => show win0_2.index t (1 : Fin 3) * 12288 + 1 * p.val = p.val; omega
  | ⟨2, _⟩ => show win0_2.index t (2 : Fin 3) * 1 + 1 * 0 = 0; omega

/-- What a grid point leaves in its output block, entry by entry: its batch's padded product sum at the
    block's cell. -/
theorem outsAt_apply (c : Dev nD) (t : Fin cfg0.N) (f : Fin 64) (gl : Fin 6912) :
    (outsAt0 (F := Ideal) m c t : S1x64x6912.Idx → EReal) (ix3 0 f gl)
      = paddedSum (pT m c) (occ m c) (fl m c) (batchOf t) f (t.val % 27 * 6912 + gl.val) := by
  obtain ⟨-, -, -, -, -, -, -, -, -, -, -, -, ec⟩ := idx_facts t
  unfold outsAt0
  refine (Body.out_apply c (grid0.coords t) (ms0_0 t) (hs0_0 t) (ms0_1 t) (hs0_1 t) (ms0_2 t) (hs0_2 t) (ms0_3 t) (hs0_3 t)
    (blk0 m c t) (blk1 m c t) (blk2 m c t) f gl).trans ?_
  unfold paddedSum
  apply Finset.sum_congr rfl
  intro p _
  rw [blk0_apply, blk1_apply, blk2_apply, ec]

/-- The cell table as the contents of the kernel's result array (4 × 64 × 186624). -/
abbrev cells (c : Dev nD) : S4x64x186624.Idx → EReal :=
  fun i => cellSum (pil m c) (coord m c) (has m c) (i 0) (i 1) (i 2).val

/-- What a grid point writes back is its block of the cell table. -/
theorem flushed_eq (c : Dev nD) (t : Fin cfg0.N) :
    (dats m 0 c).flushed 3 t = ((cfg0.win 3).blk t).view.read (Elt Ideal) (cells m c) := by
  obtain ⟨-, -, -, -, -, -, -, -, -, e0, e1, e2, -⟩ := idx_facts t
  show (cfg0.win 3).cut (grid0.coords t) ((dats m 0 c).after 3 t) = _
  rw [after0_3]
  funext j
  obtain ⟨z, f, gl, rfl⟩ : ∃ (z : Fin 1) (f : Fin 64) (gl : Fin 6912), j = ix3 z f gl := ⟨j 0, j 1, j 2, eq_ix3 j⟩
  obtain rfl : z = 0 := Subsingleton.elim _ _
  show (outsAt0 (F := Ideal) m c t : S1x64x6912.Idx → EReal) (ix3 0 f gl) = cells m c (((cfg0.win 3).blk t).view.emb (ix3 0 f gl))
  rw [outsAt_apply, paddedSum_eq_cellSum (pil m c) (coord m c) (has m c) (pT m c) (occ m c) (fl m c)
    (pT_apply m c) (occ_apply m c) (fl_apply m c)]
  show cellSum _ _ _ _ _ _ = cellSum _ _ _ ((((cfg0.win 3).blk t).view.emb (ix3 0 f gl)) 0) ((((cfg0.win 3).blk t).view.emb (ix3 0 f gl)) 1)
    ((((cfg0.win 3).blk t).view.emb (ix3 0 f gl)) 2).val
  have h0 : (((cfg0.win 3).blk t).view.emb (ix3 0 f gl)) 0 = batchOf t := Fin.ext (by
    show win0_3.index t (0 : Fin 3) * 1 + 1 * 0 = t.val / 27; omega)
  have h1 : (((cfg0.win 3).blk t).view.emb (ix3 0 f gl)) 1 = f := Fin.ext (by
    show win0_3.index t (1 : Fin 3) * 64 + 1 * f.val = f.val; omega)
  have h2 : ((((cfg0.win 3).blk t).view.emb (ix3 0 f gl)) 2).val = t.val % 27 * 6912 + gl.val := by
    show win0_3.index t (2 : Fin 3) * 6912 + 1 * gl.val = _; omega
  rw [h0, h1, h2]

/-- An index of the result array is in a grid point's block iff each coordinate is in the block's range. -/
theorem mem_blk (t : Fin cfg0.N) (i : S4x64x186624.Idx) :
    i ∈ ((cfg0.win 3).blk t).view.set ↔ ∀ a : Fin 3, win0_3.index t a * S1x64x6912.size a ≤ (i a).val
      ∧ (i a).val < win0_3.index t a * S1x64x6912.size a + S1x64x6912.size a := by
  show i ∈ ((View.whole main_v17).slice (win0_3.rect t)).set ↔ _
  rw [View.set_slice_whole, Rect.mem_set_unit]
  exact Iff.rfl

/-- Every entry of the result array is in the block of the grid point of its batch and cell tile. -/
theorem cover (i : S4x64x186624.Idx) :
    ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 186624 := (i 2).isLt
  let t : Fin cfg0.N := ⟨(i 0).val * 27 + (i 2).val / 6912, by rw [N_eq]; omega⟩
  obtain ⟨-, -, -, -, -, -, -, -, -, e0, e1, e2, -⟩ := idx_facts t
  have ht : t.val = (i 0).val * 27 + (i 2).val / 6912 := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 6912 ≤ (i 2).val ∧ (i 2).val < win0_3.index t (2 : Fin 3) * 6912 + 6912; omega

/-- The result array after the region is the cell table. -/
theorem final (c : Dev nD) : (dats m 0 c).arrAt 3 cfg0.N = cells m c :=
  (dats m 0 c).arrAt_eq_of_cover 3 (cells m c) (fun t _ => flushed_eq m c t) cover

/-- The kernel's last host line reshapes the cell table to the image: flat cell x · 432 + y is cell (x, y). -/
theorem reshape_cells (c : Dev nD) :
    shapeCast S4x64x432x432 (cells m c) shapeCasts_S4x64x186624_S4x64x432x432
      = image (pil m c) (coord m c) (has m c) := by
  funext i
  have h0 : (i 0).val < 4 := (i 0).isLt
  have h1 : (i 1).val < 64 := (i 1).isLt
  have h2 : (i 2).val < 432 := (i 2).isLt
  have h3 : (i 3).val < 432 := (i 3).isLt
  refine (shapeCast_apply (cells m c) shapeCasts_S4x64x186624_S4x64x432x432 i
    (ix3 (i 0) (i 1) ⟨(i 2).val * 432 + (i 3).val, by omega⟩) ?_).trans rfl
  rewrite [Shape.rowMajor_val_three, Shape.rowMajor_val_four]
  show ((i 0).val * 64 + (i 1).val) * 186624 + ((i 2).val * 432 + (i 3).val)
    = (((i 0).val * 64 + (i 1).val) * 432 + (i 2).val) * 432 + (i 3).val
  omega

/-- What the lines after the region leave in the program's result: the image. -/
theorem tail_eq (c : Dev nD) :
    Pipeline.afterTail₀ cfgs (dats m) 0 (V0 m) [hostOps1] c main_v18 = image (pil m c) (coord m c) (has m c) := by
  unfold Pipeline.afterTail₀
  show StableHlo.after hostOps1 _ (Proc.devRef .tc main_v18) = _
  after_results
  have hA : Pipeline.withArrays (cfgs 0).spec c (V0 m c) (fun w => (dats m 0 c).arrAt w (cfgs 0).N)
      (Proc.devRef .tc main_v17) = cells m c :=
    (Pipeline.withArrays_arr spec0 launch0.win.arr_inj c _ _ 3).trans (final m c)
  funext i
  show shapeCast S4x64x432x432 (Pipeline.withArrays (cfgs 0).spec c (V0 m c)
    (fun w => (dats m 0 c).arrAt w (cfgs 0).N) (Proc.devRef .tc main_v17)) shapeCasts_S4x64x186624_S4x64x432x432 i = _
  rw [hA, reshape_cells]

/-- The kernel's run, read: the program's result is the image of the argument arrays, which end unchanged. -/
theorem run : θ_run defs (onTc (τ := τ) (main (F := Ideal))) ⟨m, fun _ => 0, ρ⟩ fun r => ∀ c : Dev nD,
      r.2.mem ((c.tc : Thread nD τ).loc main_v18) = image (pil m c) (coord m c) (has m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.lean ====
/-
  The pillar scatter: a Pallas kernel that rebuilds a scatter-add as a masked one-hot product, against
  jnp's `grid.at[batch, flat].add(where(mask, pillars, 0))`.

  Both programs compute, for batch b, feature f and grid cell g = x · 432 + y, the sum of pillars(b, p, f) over
  the pillars p of the batch that are occupied (contains_pillars = 1) and whose flat cell index
  coord(b, p, 1) · 432 + coord(b, p, 2) (32-bit arithmetic) is g: `Cert.PillarScatter.image`.

  The kernel pads the pillar axis from 12000 to 12288 slots with zeros, and each grid point (b, tile) walks the
  12288 slots in 16 chunks of 768, adding for each chunk the product of the 64 × 768 block of
  feature · occupancy with the 768 × 6912 indicator matrix [flat(slot) = tile · 6912 + column]. Over the extended
  reals the sixteen chunk products and the additions between them are one sum over the 12288 slots; a padding slot
  contributes 0 · 0 · _ = 0, a real slot the feature where it is occupied and lands on the cell and 0 elsewhere.
  No finiteness is used: the extended reals are a commutative monoid under + with a · 1 = a and a · 0 = 0.

  The reference sums, for each cell of a zero array, the updates whose index vector (batch, normalised flat) is the
  cell, dropping the updates that land outside; jnp normalises a negative flat index i to i + 186624 first. The
  kernel instead compares the flat index with the cell numbers 0 … 186623, so a flat index in [−186624, −1] lands on a
  cell in the reference and on none in the kernel. The precondition's second conjunct states that no flat index is
  negative; under it the normalisation is the identity and the two sums are the same sum. (A flat index of 186624
  or more lands nowhere in both programs and is not excluded.)

  The three frames are the generated ones (the reference's is its generated run with the result dropped);
  the idealisation pass rewrote nothing, so `preserves` is `True`.
-/
import proofs.«418659_j22342419873901_1_alg».proof.Defs
import proofs.«418659_j22342419873901_1_alg».proof.Proof.Gen.Kernel
import proofs.«418659_j22342419873901_1_alg».proof.Proof.Gen.Kernel.Skeleton
import proofs.«418659_j22342419873901_1_alg».proof.Proof.Gen.Kernel.Loops
import proofs.«418659_j22342419873901_1_alg».proof.Proof.Gen.Kernel.Launch
import proofs.«418659_j22342419873901_1_alg».proof.Proof.Gen.Kernel.Points
import proofs.«418659_j22342419873901_1_alg».proof.Proof.Gen.Kernel.Frame
import proofs.«418659_j22342419873901_1_alg».proof.Proof.Gen.KernelIdeal
import proofs.«418659_j22342419873901_1_alg».proof.Proof.Gen.KernelIdeal.Skeleton
import proofs.«418659_j22342419873901_1_alg».proof.Proof.Gen.KernelIdeal.Loops
import proofs.«418659_j22342419873901_1_alg».proof.Proof.Gen.KernelIdeal.Launch
import proofs.«418659_j22342419873901_1_alg».proof.Proof.Gen.KernelIdeal.Points
import proofs.«418659_j22342419873901_1_alg».proof.Proof.Gen.KernelIdeal.Frame
import proofs.«418659_j22342419873901_1_alg».proof.Proof.Gen.ReferenceIdeal
import proofs.«418659_j22342419873901_1_alg».proof.Proof.Gen.Pre_finite_inputs
import proofs.«418659_j22342419873901_1_alg».proof.Proof.Gen.ReferenceIdeal.Run
import proofs.«418659_j22342419873901_1_alg».proof.Proof.Gen.ReferenceIdeal.Read
import proofs.«418659_j22342419873901_1_alg».proof.Proof.PreFlat
import proofs.«418659_j22342419873901_1_alg».proof.Proof.RefValue
import proofs.«418659_j22342419873901_1_alg».proof.Proof.KValue
import Idealize.ShloMosaic.Adequacy
import Idealize.ShloMosaic.Init

noncomputable section

namespace Cert.Proof

open Idealize.ShloMosaic Idealize.SL.Sem Cert.PillarScatter

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the image of the argument arrays: the kernel's by its blocks (one cell tile per grid
    point, each the padded product sum), the reference's by its scatter read cell by cell, the precondition
    making its index normalisation the identity. -/
theorem algebraic : Cert.algebraic_KernelIdeal_ReferenceIdeal := by
  intro m ρ m' ρ' hpre hagree
  refine ⟨fun c => image (Cert.KernelIdeal.Host.pil m c) (Cert.KernelIdeal.Host.coord m c) (Cert.KernelIdeal.Host.has m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq _ _ _).trans ?_
  rw [(hagree c).1, (hagree c).2.1, (hagree c).2.2]
  exact ref_image _ _ _ (fun b p => flat_nonneg_of_pre _ _ _ (hpre c) b p)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
